-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x8192 .f32) (main_arg1 : FVec F S8192x128 .f32) (main_arg2 : FVec F S128x128 .f32) (main_arg3 : FVec F S128 .f32) (main_arg4 : FVec F S128x128 .f32) (main_arg5 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S512x2048 : Shape := ⟨2, ![512, 2048]⟩
abbrev S2048x128 : Shape := ⟨2, ![2048, 128]⟩
abbrev S512x128 : Shape := ⟨2, ![512, 128]⟩

abbrev nBuf : Space → Nat
  | .hbm => 12
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S8192x128, .f32⟩
  | .hbm, ⟨9, _⟩ => ⟨S128x128, .f32⟩
  | .hbm, ⟨10, _⟩ => ⟨S1x128, .f32⟩
  | .hbm, ⟨11, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2048, .f32⟩
  | .local _ .vmem, ⟨10, _⟩ => ⟨S512x2048, .f32⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S1x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S128x128_S128x128_1_0 : S128x128.Transposes [1, 0] S128x128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S2048x128_S2048x128 : S2048x128.ShapeCasts S2048x128
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8192x128, .f32⟩
  | .hbm, ⟨7, _⟩ => ⟨S128x128, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S128x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.K.Cases0.lean ====
/-
  The layer kernel of pallas_call 0, one grid point at a time. A grid point is a pair (row block, contraction step); the body
  keeps a [512, 128] accumulator in scratch across the four contraction steps of a row block. Three cases by the step:
  the first zeroes the accumulator and adds the step's partial product A_blk · X_blk; a middle one adds its partial product
  to what the step before left; the last adds its partial product and then stores accumulator · Wᵀ + bias (the first layer:
  clipped at zero) into the output block. Each case is stated as what the body leaves in the accumulator and in the output
  block as a function of the blocks it read, the arithmetic kept folded in the payload terms.
-/
import proofs.«143792_g77017353552368_cont_sun_m_946_2_alg».proof.Proof.Gen.Kernel.Launch
import proofs.«143792_g77017353552368_cont_sun_m_946_2_alg».proof.Proof.Gen.Kernel.Skeleton
import proofs.«143792_g77017353552368_cont_sun_m_946_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel, and the zero offsets -/

/-- The first branch (the accumulator is zeroed) is taken where the contraction coordinate is 0. -/
abbrev cond0_a (i : grid0.Coords) : Prop := (Scalar.cmpi .ne (Scalar.extui (Scalar.cmpi .eq (BitVec.ofNat 32 (i 1).val) 0#32)) 0#32) = 1#1
/-- The second branch (the weight product, the bias and the store of the output block) is taken where it is 3. -/
abbrev cond0_b (i : grid0.Coords) : Prop := k0_cond2 i = 1#1

/-- The offsets of every access of the body: zero on both axes. -/
theorem off_zero0 : (![0, 0] : Fin 2 → Nat) = fun _ => 0 := by
  funext a; fin_cases a <;> rfl

/-! ## The body, case by case -/

set_option maxHeartbeats 1000000 in
/-- FIRST contraction step of a row block: the accumulator is zeroed, then holds the partial product of this step's
    blocks added to zero. The output's staging buffer is not touched. -/
theorem body0_first (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : cond0_a i) (hc1 : ¬cond0_b i)
    (x0 : Vec F S512x2048 .f32) (x1 : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k0_pay2 x0 x1 (k0_pay1 (F := F)))) -∗ K ⟨⟩))
      ⊢ wp frame (wpE (defs₀ (F := F)) Variants.none c none) E (cc0__layer_kernel i arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%ds, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero0 inb_S512x128_S512x128_0_0 y⟩),
    View.canon_cons_unit_zero off_zero0]
  simp only [View.readAt_eq_ld, harg2.read_unread, harg3.read_unread, View.ld_unit_zero (S := S512x2048) off_zero0, View.ld_unit_zero (S := S2048x128) off_zero0, View.ld_unit_zero (S := S512x128) off_zero0, View.ld_unit_zero (S := S128x128) off_zero0, View.ld_unit_zero (S := S1x128) off_zero0,
    View.readCov_unit_zero (S := S512x128) _ off_zero0]

set_option maxHeartbeats 1000000 in
/-- A MIDDLE contraction step: the accumulator, at what the step before left, gains this step's partial product.
    The output's staging buffer is not touched. -/
theorem body0_mid (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond0_a i) (hc1 : ¬cond0_b i)
    (x0 : Vec F S512x2048 .f32) (x1 : Vec F S2048x128 .f32) (xs : Vec F S512x128 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k0_pay2 x0 x1 xs)) -∗ K ⟨⟩))
      ⊢ wp frame (wpE (defs₀ (F := F)) Variants.none c none) E (cc0__layer_kernel i arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero0 inb_S512x128_S512x128_0_0 y⟩),
    View.canon_cons_unit_zero off_zero0]
  simp only [View.readAt_eq_ld, harg2.read_unread, harg3.read_unread, harg7.read_unread, View.ld_unit_zero (S := S512x2048) off_zero0, View.ld_unit_zero (S := S2048x128) off_zero0, View.ld_unit_zero (S := S512x128) off_zero0, View.ld_unit_zero (S := S128x128) off_zero0, View.ld_unit_zero (S := S1x128) off_zero0]

set_option maxHeartbeats 1000000 in
/-- The LAST contraction step: the accumulator gains this step's partial product, and the output's staging buffer
    receives the finished accumulator times the weights, plus the bias (and, in the first layer, clipped at zero). -/
theorem body0_last (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond0_a i) (hc1 : cond0_b i)
    (x0 : Vec F S512x2048 .f32) (x1 : Vec F S2048x128 .f32) (x2 : Vec F S128x128 .f32) (x3 : Vec F S1x128 .f32)
    (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay3 (k0_pay2 x0 x1 xs) x2 x3)
            ∗ owns (c : Thread nD τ) arg7 fullShare (k0_pay2 x0 x1 xs)) -∗ K ⟨⟩))
      ⊢ wp frame (wpE (defs₀ (F := F)) Variants.none c none) E (cc0__layer_kernel i arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero off_zero0 inb_S512x128_S512x128_0_0 y⟩),
      View.canon_cons_unit_zero off_zero0]
    simp only [View.readAt_eq_ld, harg2.read_unread, harg3.read_unread, harg4.read_unread, harg5.read_unread, harg7.read_unread,
      View.ld_unit_zero (S := S512x2048) off_zero0, View.ld_unit_zero (S := S2048x128) off_zero0, View.ld_unit_zero (S := S512x128) off_zero0, View.ld_unit_zero (S := S128x128) off_zero0, View.ld_unit_zero (S := S1x128) off_zero0, View.readCov_unit_zero (S := S512x128) _ off_zero0]
  iexists _; isplitr
  swap; · iexact HS0
  ipureintro
  sl_unfold_words
  rw [View.read_writes_eq_canon _ _ _ (fun y => ⟨_, List.mem_cons_self, View.mem_set_unit_zero off_zero0 inb_S512x128_S512x128_0_0 y⟩),
    View.canon_cons_unit_zero off_zero0]
  simp only [View.readAt_eq_ld, harg2.read_unread, harg3.read_unread, harg7.read_unread, View.ld_unit_zero (S := S512x2048) off_zero0, View.ld_unit_zero (S := S2048x128) off_zero0, View.ld_unit_zero (S := S512x128) off_zero0, View.ld_unit_zero (S := S128x128) off_zero0, View.ld_unit_zero (S := S1x128) off_zero0]

end Cert.Kernel.Layers

end
-- ==== Proof.K.Inv0.lean ====
/-
  What pallas_call 0's body may use besides its windows' buffers: its accumulator (a scoped [512, 128] buffer), the core's
  other scoped buffers that are no staging buffer of this pipeline, and the generator register. The launch hands the region
  all of them at contents nobody names; the split and its converse let the invariant name the accumulator's contents.
-/
import proofs.«143792_g77017353552368_cont_sun_m_946_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator's buffer. -/
abbrev scM0 : Memref sig .tc .vmem S512x128 .f32 := Memref.whole cc0_scratch0

/-- The core's other scoped buffers that are no staging buffer of this pipeline, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region is the accumulator at some contents, the other scoped buffers and the generator register; -/
theorem PhiA0_split (c : Dev nD) :
    (Pipeline.ΦA spec0 c : sProp 𝕄) ⊢ iprop((∃ d, owns (c : Thread nD τ) scM0 fullShare d) ∗ others0 (F := F) c ∗ (∃ r, prngReg c r)) := by
  unfold Pipeline.ΦA; rw [scopedRest0_eq]; unfold others0; simp only [scM0, owns_whole]
  iintro ⟨⟨R0, R1, R2, R3, R4, R5, R6, R7, R8, R9⟩, Hg⟩
  isplitl [R0]; · iexact R0
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

/-- and back. -/
theorem PhiA0_join (c : Dev nD) :
    iprop((∃ d, owns (c : Thread nD τ) scM0 fullShare d) ∗ others0 (F := F) c ∗ (∃ r, prngReg c r)) ⊢ (Pipeline.ΦA spec0 c : sProp 𝕄) := by
  unfold Pipeline.ΦA; rw [scopedRest0_eq]; unfold others0; simp only [scM0, owns_whole]
  iintro ⟨R0, ⟨R1, R2, R3, R4, R5, R6, R7, R8, R9⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

end Cert.Kernel.Layers

end
-- ==== Proof.K.Region0.lean ====
/-
  Pallas_call 0 as a pipeline, at any contents `V` of the core's buffers when the region is entered: the blocks its four
  input windows hold at a grid point, what the accumulator holds after each point (a recursion on the point: reset at the
  first contraction step of a row block, stepped at the others), what the output window's buffer holds at the points that
  store it, the invariant that carries the accumulator from point to point, and the proof that the body meets the pipeline's
  obligation at every point.
-/
import proofs.«143792_g77017353552368_cont_sun_m_946_2_alg».proof.Proof.K.Cases0
import proofs.«143792_g77017353552368_cont_sun_m_946_2_alg».proof.Proof.K.Inv0

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The schedule in closed form -/

/-- The accumulator is zeroed at the points ≡ 0 (mod 4): the first contraction step of each row block. -/
theorem hcond0_a : ∀ t : Fin cfg0.N, cond0_a (grid0.coords t) ↔ t.val % 4 = 0 :=
  (by decide +kernel : ∀ t : Fin grid0.N, cond0_a (grid0.coords t) ↔ t.val % 4 = 0)
/-- The output block is stored at the points ≡ 3 (mod 4): the last contraction step of each row block. -/
theorem hcond0_b : ∀ t : Fin cfg0.N, cond0_b (grid0.coords t) ↔ t.val % 4 = 3 :=
  (by decide +kernel : ∀ t : Fin grid0.N, cond0_b (grid0.coords t) ↔ t.val % 4 = 3)
/-- Elsewhere the output window is idle, -/
theorem idle0_4 : ∀ t : Fin cfg0.N, ¬cond0_b (grid0.coords t) → cfg0.idle 4 (grid0.coords t) = true := by decide +kernel
/-- at those points it is live, -/
theorem live0_4 : ∀ t : Fin cfg0.N, cond0_b (grid0.coords t) → cfg0.idle 4 (grid0.coords t) = false := by decide +kernel
/-- and where it is idle the pipeline does not write its block back. -/
theorem noflush0_4 : ∀ t : Fin cfg0.N, ¬cond0_b (grid0.coords t) → (cfg0.win 4).flush t = false := by decide +kernel

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at their literal shapes: the [512, 2048] block of A, the [2048, 128] block of the features, the
    whole [128, 128] transposed weight and the [1, 128] bias row. -/
abbrev ablk0 (c : Dev nD) (t : Fin cfg0.N) : Vec F S512x2048 .f32 := iblk0 V c 0 t
abbrev xblk0 (c : Dev nD) (t : Fin cfg0.N) : Vec F S2048x128 .f32 := iblk0 V c 1 t
abbrev wblk0 (c : Dev nD) (t : Fin cfg0.N) : Vec F S128x128 .f32 := iblk0 V c 2 t
abbrev bblk0 (c : Dev nD) (t : Fin cfg0.N) : Vec F S1x128 .f32 := iblk0 V c 3 t

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator and the output block, point by point -/

/-- What the accumulator holds after the body at position `n`: at the first contraction step of a row block the step's
    partial product over zero, at every other step the partial product over what the step before left. -/
def accAt0 (c : Dev nD) : (n : ℕ) → n < cfg0.N → Vec F S512x128 .f32
  | 0, hn => k0_pay2 (ablk0 V c ⟨0, hn⟩) (xblk0 V c ⟨0, hn⟩) (k0_pay1 (F := F))
  | n + 1, hn =>
    if (n + 1) % 4 = 0 then k0_pay2 (ablk0 V c ⟨n + 1, hn⟩) (xblk0 V c ⟨n + 1, hn⟩) (k0_pay1 (F := F))
    else k0_pay2 (ablk0 V c ⟨n + 1, hn⟩) (xblk0 V c ⟨n + 1, hn⟩) (accAt0 c n (Nat.lt_of_succ_lt hn))

theorem accAt0_first (c : Dev nD) (t : Fin cfg0.N) (h : t.val % 4 = 0) :
    accAt0 V c t.val t.isLt = k0_pay2 (ablk0 V c t) (xblk0 V c t) (k0_pay1 (F := F)) := by
  obtain ⟨n, hn⟩ := t
  cases n with
  | zero => rfl
  | succ n => exact if_pos h

theorem accAt0_step (c : Dev nD) (t : Fin cfg0.N) (h : ¬t.val % 4 = 0) :
    accAt0 V c t.val t.isLt
      = k0_pay2 (ablk0 V c t) (xblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- What the output window's buffer holds after the body at a point that stores it: the accumulator times the weights,
    plus the bias. (At the other points the window is idle and this term is not consulted.) -/
def outAt0 (c : Dev nD) (t : Fin cfg0.N) : Vec F S512x128 .f32 :=
  k0_pay3 (accAt0 V c t.val t.isLt) (wblk0 V c t) (bblk0 V c t)

/-! ## The invariant between points -/

/-- The invariant before position `n`: before the first point what the launch hands the region; afterwards the accumulator
    at what the point before left in it, the other scoped buffers and the generator register. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (accAt0 V c n hn) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (accAt0 V c (n - 1) (by omega)) ∗ others0 (F := F) c ∗ (∃ r, prngReg c r)) := by
  cases n with
  | zero => exact absurd rfl hz
  | succ n => rfl

/-! ## The pipeline's proof data -/

/-- The arrays as the region finds them; after the body each input's buffer at its block and the output's at `outAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (st0_0 t) fullShare (iblk0 V c 0 t) := by
  rw [← after0_0]
theorem leaves0_1 (c : Dev nD) (t : Fin cfg0.N) : (dat0 V c).leavesExact 1 t = owns (c : Thread nD τ) (st0_1 t) fullShare (iblk0 V c 1 t) := by
  rw [← after0_1]
theorem leaves0_2 (c : Dev nD) (t : Fin cfg0.N) : (dat0 V c).leavesExact 2 t = owns (c : Thread nD τ) (st0_2 t) fullShare (iblk0 V c 2 t) := by
  rw [← after0_2]
theorem leaves0_3 (c : Dev nD) (t : Fin cfg0.N) : (dat0 V c).leavesExact 3 t = owns (c : Thread nD τ) (st0_3 t) fullShare (iblk0 V c 3 t) := by
  rw [← after0_3]

set_option maxHeartbeats 4000000 in
/-- The body at any point. The inputs' buffers hold their blocks; the point's position in its row block says which case it
    is; the invariant hands the body the accumulator at what the point before left (at anything where the case zeroes it) and
    takes it back at this point's contents; the output window is handed back untouched where the case does not store it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, PhiS0_castSucc V c t]
  have hN : t.val < 64 := lt_of_lt_of_eq t.isLt (show cfg0.N = 64 from N_0)
  by_cases h3 : t.val % 4 = 3
  · -- the last contraction step of a row block
    have h0 : ¬t.val % 4 = 0 := by omega
    have hz : t.val ≠ 0 := by omega
    rw [show (dat0 V c).leavesExact 4 t = owns (c : Thread nD τ) (st0_4 t) fullShare ((dat0 V c).after 4 t) from by
      unfold Dat.leavesExact; rw [live0_4 t ((hcond0_b t).mpr h3)], after0_4]
    unfold outAt0
    rw [accAt0_step V c t h0, PhiS0_pos V c _ _ hz]
    iintro ⟨⟨HS, Hoth, Hg⟩, Ho, ⟨%d0, H0⟩, ⟨%d1, H1⟩, ⟨%d2, H2⟩, ⟨%d3, H3⟩, ⟨%d4, H4⟩⟩
    iapply (body0_last c (grid0.coords t) _ _ _ _ _ _ _ _ _ _ _ _ (fun h => h0 ((hcond0_a t).mp h)) ((hcond0_b t).mpr h3)
      (ablk0 V c t) (xblk0 V c t) (wblk0 V c t) (bblk0 V c t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idle0_4 t (fun h => h3 ((hcond0_b t).mp h))) (noflush0_4 t (fun h => h3 ((hcond0_b t).mp h)))]
    by_cases h0 : t.val % 4 = 0
    · -- the first contraction step: the accumulator is zeroed, whatever it held
      rw [accAt0_first V c t h0]
      have hpre : PhiS0 V c t.val (Nat.le_of_lt t.isLt)
          ⊢ iprop((∃ d, owns (c : Thread nD τ) scM0 fullShare d) ∗ others0 (F := F) c ∗ (∃ r, prngReg c r)) := by
        by_cases hz : t.val = 0
        · rw [PhiS0_zero V c _ _ hz]; exact PhiA0_split c
        · rw [PhiS0_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hpre $$ HΦ
      icases HΦ' with ⟨HS, Hoth, Hg⟩
      iapply (body0_first c (grid0.coords t) _ _ _ _ _ _ _ _ _ _ _ _ ((hcond0_a t).mpr h0) (fun h => h3 ((hcond0_b t).mp h))
        (ablk0 V c t) (xblk0 V c t) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · -- a middle contraction step
      have hz : t.val ≠ 0 := fun e => h0 (by rw [e])
      rw [accAt0_step V c t h0, PhiS0_pos V c _ _ hz]
      iintro ⟨⟨HS, Hoth, Hg⟩, Ho, ⟨%d0, H0⟩, ⟨%d1, H1⟩, ⟨%d2, H2⟩, ⟨%d3, H3⟩, ⟨%d4, H4⟩⟩
      iapply (body0_mid c (grid0.coords t) _ _ _ _ _ _ _ _ _ _ _ _ (fun h => h0 ((hcond0_a t).mp h)) (fun h => h3 ((hcond0_b t).mp h))
        (ablk0 V c t) (xblk0 V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne]
  refine BIBase.Entails.trans ?_ (PhiA0_join c)
  iintro ⟨HS, Hoth, Hg⟩
  isplitl [HS]; · iexists _; iexact HS
  isplitl [Hoth]; · iexact Hoth
  iexact Hg

end

end Cert.Kernel.Layers

end
-- ==== Proof.K.Cases1.lean ====
/-
  The layer kernel of pallas_call 1, one grid point at a time. A grid point is a pair (row block, contraction step); the body
  keeps a [512, 128] accumulator in scratch across the four contraction steps of a row block. Three cases by the step:
  the first zeroes the accumulator and adds the step's partial product A_blk · X_blk; a middle one adds its partial product
  to what the step before left; the last adds its partial product and then stores accumulator · Wᵀ + bias (the first layer:
  clipped at zero) into the output block. Each case is stated as what the body leaves in the accumulator and in the output
  block as a function of the blocks it read, the arithmetic kept folded in the payload terms.
-/
import proofs.«143792_g77017353552368_cont_sun_m_946_2_alg».proof.Proof.Gen.Kernel.Launch
import proofs.«143792_g77017353552368_cont_sun_m_946_2_alg».proof.Proof.Gen.Kernel.Skeleton
import proofs.«143792_g77017353552368_cont_sun_m_946_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel, and the zero offsets -/

/-- The first branch (the accumulator is zeroed) is taken where the contraction coordinate is 0. -/
abbrev cond1_a (i : grid1.Coords) : Prop := (Scalar.cmpi .ne (Scalar.extui (Scalar.cmpi .eq (BitVec.ofNat 32 (i 1).val) 0#32)) 0#32) = 1#1
/-- The second branch (the weight product, the bias and the store of the output block) is taken where it is 3. -/
abbrev cond1_b (i : grid1.Coords) : Prop := k1_cond2 i = 1#1

/-- The offsets of every access of the body: zero on both axes. -/
theorem off_zero1 : (![0, 0] : Fin 2 → Nat) = fun _ => 0 := by
  funext a; fin_cases a <;> rfl

/-! ## The body, case by case -/

set_option maxHeartbeats 1000000 in
/-- FIRST contraction step of a row block: the accumulator is zeroed, then holds the partial product of this step's
    blocks added to zero. The output's staging buffer is not touched. -/
theorem body1_first (c : Dev nD) (i : grid1.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : cond1_a i) (hc1 : ¬cond1_b i)
    (x0 : Vec F S512x2048 .f32) (x1 : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 x0 x1 (k1_pay1 (F := F)))) -∗ K ⟨⟩))
      ⊢ wp frame (wpE (defs₀ (F := F)) Variants.none c none) E (cc1__layer_kernel i arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%ds, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero1 inb_S512x128_S512x128_0_0 y⟩),
    View.canon_cons_unit_zero off_zero1]
  simp only [View.readAt_eq_ld, harg2.read_unread, harg3.read_unread, View.ld_unit_zero (S := S512x2048) off_zero1, View.ld_unit_zero (S := S2048x128) off_zero1, View.ld_unit_zero (S := S512x128) off_zero1, View.ld_unit_zero (S := S128x128) off_zero1, View.ld_unit_zero (S := S1x128) off_zero1,
    View.readCov_unit_zero (S := S512x128) _ off_zero1]

set_option maxHeartbeats 1000000 in
/-- A MIDDLE contraction step: the accumulator, at what the step before left, gains this step's partial product.
    The output's staging buffer is not touched. -/
theorem body1_mid (c : Dev nD) (i : grid1.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond1_a i) (hc1 : ¬cond1_b i)
    (x0 : Vec F S512x2048 .f32) (x1 : Vec F S2048x128 .f32) (xs : Vec F S512x128 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k1_pay2 x0 x1 xs)) -∗ K ⟨⟩))
      ⊢ wp frame (wpE (defs₀ (F := F)) Variants.none c none) E (cc1__layer_kernel i arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero1 inb_S512x128_S512x128_0_0 y⟩),
    View.canon_cons_unit_zero off_zero1]
  simp only [View.readAt_eq_ld, harg2.read_unread, harg3.read_unread, harg7.read_unread, View.ld_unit_zero (S := S512x2048) off_zero1, View.ld_unit_zero (S := S2048x128) off_zero1, View.ld_unit_zero (S := S512x128) off_zero1, View.ld_unit_zero (S := S128x128) off_zero1, View.ld_unit_zero (S := S1x128) off_zero1]

set_option maxHeartbeats 1000000 in
/-- The LAST contraction step: the accumulator gains this step's partial product, and the output's staging buffer
    receives the finished accumulator times the weights, plus the bias (and, in the first layer, clipped at zero). -/
theorem body1_last (c : Dev nD) (i : grid1.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond1_a i) (hc1 : cond1_b i)
    (x0 : Vec F S512x2048 .f32) (x1 : Vec F S2048x128 .f32) (x2 : Vec F S128x128 .f32) (x3 : Vec F S1x128 .f32)
    (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1__layer_kernel i arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero off_zero1 inb_S512x128_S512x128_0_0 y⟩),
      View.canon_cons_unit_zero off_zero1]
    simp only [View.readAt_eq_ld, harg2.read_unread, harg3.read_unread, harg4.read_unread, harg5.read_unread, harg7.read_unread,
      View.ld_unit_zero (S := S512x2048) off_zero1, View.ld_unit_zero (S := S2048x128) off_zero1, View.ld_unit_zero (S := S512x128) off_zero1, View.ld_unit_zero (S := S128x128) off_zero1, View.ld_unit_zero (S := S1x128) off_zero1, View.readCov_unit_zero (S := S512x128) _ off_zero1]
  iexists _; isplitr
  swap; · iexact HS0
  ipureintro
  sl_unfold_words
  rw [View.read_writes_eq_canon _ _ _ (fun y => ⟨_, List.mem_cons_self, View.mem_set_unit_zero off_zero1 inb_S512x128_S512x128_0_0 y⟩),
    View.canon_cons_unit_zero off_zero1]
  simp only [View.readAt_eq_ld, harg2.read_unread, harg3.read_unread, harg7.read_unread, View.ld_unit_zero (S := S512x2048) off_zero1, View.ld_unit_zero (S := S2048x128) off_zero1, View.ld_unit_zero (S := S512x128) off_zero1, View.ld_unit_zero (S := S128x128) off_zero1, View.ld_unit_zero (S := S1x128) off_zero1]

end Cert.Kernel.Layers

end
-- ==== Proof.K.Inv1.lean ====
/-
  What pallas_call 1's body may use besides its windows' buffers: its accumulator (a scoped [512, 128] buffer), the core's
  other scoped buffers that are no staging buffer of this pipeline, and the generator register. The launch hands the region
  all of them at contents nobody names; the split and its converse let the invariant name the accumulator's contents.
-/
import proofs.«143792_g77017353552368_cont_sun_m_946_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator's buffer. -/
abbrev scM1 : Memref sig .tc .vmem S512x128 .f32 := Memref.whole cc1_scratch0

/-- The core's other scoped buffers that are no staging buffer of this pipeline, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- What the launch hands the region is the accumulator at some contents, the other scoped buffers and the generator register; -/
theorem PhiA1_split (c : Dev nD) :
    (Pipeline.ΦA spec1 c : sProp 𝕄) ⊢ iprop((∃ d, owns (c : Thread nD τ) scM1 fullShare d) ∗ others1 (F := F) c ∗ (∃ r, prngReg c r)) := by
  unfold Pipeline.ΦA; rw [scopedRest1_eq]; unfold others1; simp only [scM1, owns_whole]
  iintro ⟨⟨R0, R1, R2, R3, R4, R5, R6, R7, R8, R9⟩, Hg⟩
  isplitl [R9]; · iexact R9
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

/-- and back. -/
theorem PhiA1_join (c : Dev nD) :
    iprop((∃ d, owns (c : Thread nD τ) scM1 fullShare d) ∗ others1 (F := F) c ∗ (∃ r, prngReg c r)) ⊢ (Pipeline.ΦA spec1 c : sProp 𝕄) := by
  unfold Pipeline.ΦA; rw [scopedRest1_eq]; unfold others1; simp only [scM1, owns_whole]
  iintro ⟨R9, ⟨R0, R1, R2, R3, R4, R5, R6, R7, R8⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

end Cert.Kernel.Layers

end
-- ==== Proof.K.Region1.lean ====
/-
  Pallas_call 1 as a pipeline, at any contents `V` of the core's buffers when the region is entered: the blocks its four
  input windows hold at a grid point, what the accumulator holds after each point (a recursion on the point: reset at the
  first contraction step of a row block, stepped at the others), what the output window's buffer holds at the points that
  store it, the invariant that carries the accumulator from point to point, and the proof that the body meets the pipeline's
  obligation at every point.
-/
import proofs.«143792_g77017353552368_cont_sun_m_946_2_alg».proof.Proof.K.Cases1
import proofs.«143792_g77017353552368_cont_sun_m_946_2_alg».proof.Proof.K.Inv1

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The schedule in closed form -/

/-- The accumulator is zeroed at the points ≡ 0 (mod 4): the first contraction step of each row block. -/
theorem hcond1_a : ∀ t : Fin cfg1.N, cond1_a (grid1.coords t) ↔ t.val % 4 = 0 :=
  (by decide +kernel : ∀ t : Fin grid1.N, cond1_a (grid1.coords t) ↔ t.val % 4 = 0)
/-- The output block is stored at the points ≡ 3 (mod 4): the last contraction step of each row block. -/
theorem hcond1_b : ∀ t : Fin cfg1.N, cond1_b (grid1.coords t) ↔ t.val % 4 = 3 :=
  (by decide +kernel : ∀ t : Fin grid1.N, cond1_b (grid1.coords t) ↔ t.val % 4 = 3)
/-- Elsewhere the output window is idle, -/
theorem idle1_4 : ∀ t : Fin cfg1.N, ¬cond1_b (grid1.coords t) → cfg1.idle 4 (grid1.coords t) = true := by decide +kernel
/-- at those points it is live, -/
theorem live1_4 : ∀ t : Fin cfg1.N, cond1_b (grid1.coords t) → cfg1.idle 4 (grid1.coords t) = false := by decide +kernel
/-- and where it is idle the pipeline does not write its block back. -/
theorem noflush1_4 : ∀ t : Fin cfg1.N, ¬cond1_b (grid1.coords t) → (cfg1.win 4).flush t = false := by decide +kernel

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at their literal shapes: the [512, 2048] block of A, the [2048, 128] block of the features, the
    whole [128, 128] transposed weight and the [1, 128] bias row. -/
abbrev ablk1 (c : Dev nD) (t : Fin cfg1.N) : Vec F S512x2048 .f32 := iblk1 V c 0 t
abbrev xblk1 (c : Dev nD) (t : Fin cfg1.N) : Vec F S2048x128 .f32 := iblk1 V c 1 t
abbrev wblk1 (c : Dev nD) (t : Fin cfg1.N) : Vec F S128x128 .f32 := iblk1 V c 2 t
abbrev bblk1 (c : Dev nD) (t : Fin cfg1.N) : Vec F S1x128 .f32 := iblk1 V c 3 t

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, point by point -/

/-- What the accumulator holds after the body at position `n`: at the first contraction step of a row block the step's
    partial product over zero, at every other step the partial product over what the step before left. -/
def accAt1 (c : Dev nD) : (n : ℕ) → n < cfg1.N → Vec F S512x128 .f32
  | 0, hn => k1_pay2 (ablk1 V c ⟨0, hn⟩) (xblk1 V c ⟨0, hn⟩) (k1_pay1 (F := F))
  | n + 1, hn =>
    if (n + 1) % 4 = 0 then k1_pay2 (ablk1 V c ⟨n + 1, hn⟩) (xblk1 V c ⟨n + 1, hn⟩) (k1_pay1 (F := F))
    else k1_pay2 (ablk1 V c ⟨n + 1, hn⟩) (xblk1 V c ⟨n + 1, hn⟩) (accAt1 c n (Nat.lt_of_succ_lt hn))

theorem accAt1_first (c : Dev nD) (t : Fin cfg1.N) (h : t.val % 4 = 0) :
    accAt1 V c t.val t.isLt = k1_pay2 (ablk1 V c t) (xblk1 V c t) (k1_pay1 (F := F)) := by
  obtain ⟨n, hn⟩ := t
  cases n with
  | zero => rfl
  | succ n => exact if_pos h

theorem accAt1_step (c : Dev nD) (t : Fin cfg1.N) (h : ¬t.val % 4 = 0) :
    accAt1 V c t.val t.isLt
      = k1_pay2 (ablk1 V c t) (xblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- What the output window's buffer holds after the body at a point that stores it: the accumulator times the weights,
    plus the bias. (At the other points the window is idle and this term is not consulted.) -/
def outAt1 (c : Dev nD) (t : Fin cfg1.N) : Vec F S512x128 .f32 :=
  k1_pay3 (accAt1 V c t.val t.isLt) (wblk1 V c t) (bblk1 V c t)

/-! ## The invariant between points -/

/-- The invariant before position `n`: before the first point what the launch hands the region; afterwards the accumulator
    at what the point before left in it, the other scoped buffers and the generator register. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ others1 (F := F) c ∗ (∃ r, prngReg c r)) := by
  cases n with
  | zero => exact absurd rfl hz
  | succ n => rfl

/-! ## The pipeline's proof data -/

/-- The arrays as the region finds them; after the body each input's buffer at its block and the output's at `outAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (st1_0 t) fullShare (iblk1 V c 0 t) := by
  rw [← after1_0]
theorem leaves1_1 (c : Dev nD) (t : Fin cfg1.N) : (dat1 V c).leavesExact 1 t = owns (c : Thread nD τ) (st1_1 t) fullShare (iblk1 V c 1 t) := by
  rw [← after1_1]
theorem leaves1_2 (c : Dev nD) (t : Fin cfg1.N) : (dat1 V c).leavesExact 2 t = owns (c : Thread nD τ) (st1_2 t) fullShare (iblk1 V c 2 t) := by
  rw [← after1_2]
theorem leaves1_3 (c : Dev nD) (t : Fin cfg1.N) : (dat1 V c).leavesExact 3 t = owns (c : Thread nD τ) (st1_3 t) fullShare (iblk1 V c 3 t) := by
  rw [← after1_3]

set_option maxHeartbeats 4000000 in
/-- The body at any point. The inputs' buffers hold their blocks; the point's position in its row block says which case it
    is; the invariant hands the body the accumulator at what the point before left (at anything where the case zeroes it) and
    takes it back at this point's contents; the output window is handed back untouched where the case does not store it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, PhiS1_castSucc V c t]
  have hN : t.val < 64 := lt_of_lt_of_eq t.isLt (show cfg1.N = 64 from N_1)
  by_cases h3 : t.val % 4 = 3
  · -- the last contraction step of a row block
    have h0 : ¬t.val % 4 = 0 := by omega
    have hz : t.val ≠ 0 := by omega
    rw [show (dat1 V c).leavesExact 4 t = owns (c : Thread nD τ) (st1_4 t) fullShare ((dat1 V c).after 4 t) from by
      unfold Dat.leavesExact; rw [live1_4 t ((hcond1_b t).mpr h3)], after1_4]
    unfold outAt1
    rw [accAt1_step V c t h0, PhiS1_pos V c _ _ hz]
    iintro ⟨⟨HS, Hoth, Hg⟩, Ho, ⟨%d0, H0⟩, ⟨%d1, H1⟩, ⟨%d2, H2⟩, ⟨%d3, H3⟩, ⟨%d4, H4⟩⟩
    iapply (body1_last c (grid1.coords t) _ _ _ _ _ _ _ _ _ _ _ _ (fun h => h0 ((hcond1_a t).mp h)) ((hcond1_b t).mpr h3)
      (ablk1 V c t) (xblk1 V c t) (wblk1 V c t) (bblk1 V c t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idle1_4 t (fun h => h3 ((hcond1_b t).mp h))) (noflush1_4 t (fun h => h3 ((hcond1_b t).mp h)))]
    by_cases h0 : t.val % 4 = 0
    · -- the first contraction step: the accumulator is zeroed, whatever it held
      rw [accAt1_first V c t h0]
      have hpre : PhiS1 V c t.val (Nat.le_of_lt t.isLt)
          ⊢ iprop((∃ d, owns (c : Thread nD τ) scM1 fullShare d) ∗ others1 (F := F) c ∗ (∃ r, prngReg c r)) := by
        by_cases hz : t.val = 0
        · rw [PhiS1_zero V c _ _ hz]; exact PhiA1_split c
        · rw [PhiS1_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hpre $$ HΦ
      icases HΦ' with ⟨HS, Hoth, Hg⟩
      iapply (body1_first c (grid1.coords t) _ _ _ _ _ _ _ _ _ _ _ _ ((hcond1_a t).mpr h0) (fun h => h3 ((hcond1_b t).mp h))
        (ablk1 V c t) (xblk1 V c t) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · -- a middle contraction step
      have hz : t.val ≠ 0 := fun e => h0 (by rw [e])
      rw [accAt1_step V c t h0, PhiS1_pos V c _ _ hz]
      iintro ⟨⟨HS, Hoth, Hg⟩, Ho, ⟨%d0, H0⟩, ⟨%d1, H1⟩, ⟨%d2, H2⟩, ⟨%d3, H3⟩, ⟨%d4, H4⟩⟩
      iapply (body1_mid c (grid1.coords t) _ _ _ _ _ _ _ _ _ _ _ _ (fun h => h0 ((hcond1_a t).mp h)) (fun h => h3 ((hcond1_b t).mp h))
        (ablk1 V c t) (xblk1 V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne]
  refine BIBase.Entails.trans ?_ (PhiA1_join c)
  iintro ⟨HS, Hoth, Hg⟩
  isplitl [HS]; · iexists _; iexact HS
  isplitl [Hoth]; · iexact Hoth
  iexact Hg

end

end Cert.Kernel.Layers

end
-- ==== Proof.K.Run.lean ====
/-
  The whole program's run: the two host stretches (each a transpose of a weight and a reshape of a bias) and the two
  pallas_calls, composed in order. The buffer contents at each boundary are named: the launch memory, then after the
  first host stretch, then with the first layer's output array at what its write-backs leave, then after the second host
  stretch, then with the second layer's output array at what its write-backs leave. Every weakly fair execution terminates
  with every unscoped buffer at the last of these; the argument arrays are read back through the chain to the launch memory.
-/
import proofs.«143792_g77017353552368_cont_sun_m_946_2_alg».proof.Proof.K.Region0
import proofs.«143792_g77017353552368_cont_sun_m_946_2_alg».proof.Proof.K.Region1

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each host stretch leaves alone -/

/-- The first host stretch writes only the transposed weight and the reshaped bias of the first layer. -/
theorem W1_of (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))
/-- The second writes only those of the second layer. -/
theorem W3_of (c : Dev nD) (b : Ref sig .tc) (h0 : b ≠ main_v3) (h1 : b ≠ main_v4) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))

/-- An argument array reaches the end as launched: no host operation writes it, and a pallas_call at most reads it
    through an input window. -/
theorem W4_arg (c : Dev nD) (b : Ref sig .tc) (hb4 : ∀ w, Pipeline.arrRef spec1 w ≠ b) (hb3 : b ≠ main_v3 ∧ b ≠ main_v4)
    (hb2 : ∀ w, Pipeline.arrRef spec0 w ≠ b) (hb1 : b ≠ main_v0 ∧ b ≠ main_v1) :
    W4 m ρ c (Proc.devRef .tc b) = m ((c : Thread nD τ).loc b) :=
  (W4_of_ne m ρ c b hb4).trans ((W3_of m ρ c b hb3.1 hb3.2).trans ((W2_of_ne m ρ c b hb2).trans ((W1_of m ρ c b hb1.1 hb1.2).trans rfl)))

/-- The adjacency is an input window of both pallas_calls: each leaves it as it found it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide) (by decide)
    _ = m ((c : Thread nD τ).loc main_arg0) := rfl
/-- The features are an input window of the first pallas_call only. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide) (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide) (by decide)
    _ = m ((c : Thread nD τ).loc main_arg1) := rfl
/-- The weights and biases are no window's array: every item passes them by. -/
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)
theorem W4_main_arg4 (c : Dev nD) : W4 m ρ c (Proc.devRef .tc main_arg4) = m ((c : Thread nD τ).loc main_arg4) :=
  W4_arg m ρ c main_arg4 (by decide) (by decide) (by decide) (by decide)
theorem W4_main_arg5 (c : Dev nD) : W4 m ρ c (Proc.devRef .tc main_arg5) = m ((c : Thread nD τ).loc main_arg5) :=
  W4_arg m ρ c main_arg5 (by decide) (by decide) (by decide) (by decide)

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_alloc_none : (hostOps0 : List (HloOp τ sig (Elt F))).Forall fun op => op.fresh = ∅ := by
  simp only [List.Forall]; repeat' constructor
theorem hostOps1_alloc_none : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Pallas_call 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four items in order. -/
abbrev segs : List (Pipeline.Seg (pcfgs (F := F)) adm (pdats m ρ) () defs₀ 𝒱₀ L lv) :=
  [ .host (hseg hostOps0 hostOps0_sub hostOps0_alloc_none (W0 m ρ)),
    .region (reg0 m ρ),
    .host (hseg hostOps1 hostOps1_sub hostOps1_alloc_none (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Layers

end
-- ==== Proof.KI.Cases0.lean ====
/-
  The layer kernel of pallas_call 0, one grid point at a time. A grid point is a pair (row block, contraction step); the body
  keeps a [512, 128] accumulator in scratch across the four contraction steps of a row block. Three cases by the step:
  the first zeroes the accumulator and adds the step's partial product A_blk · X_blk; a middle one adds its partial product
  to what the step before left; the last adds its partial product and then stores accumulator · Wᵀ + bias (the first layer:
  clipped at zero) into the output block. Each case is stated as what the body leaves in the accumulator and in the output
  block as a function of the blocks it read, the arithmetic kept folded in the payload terms.
-/
import proofs.«143792_g77017353552368_cont_sun_m_946_2_alg».proof.Proof.Gen.KernelIdeal.Launch
import proofs.«143792_g77017353552368_cont_sun_m_946_2_alg».proof.Proof.Gen.KernelIdeal.Skeleton
import proofs.«143792_g77017353552368_cont_sun_m_946_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel, and the zero offsets -/

/-- The first branch (the accumulator is zeroed) is taken where the contraction coordinate is 0. -/
abbrev cond0_a (i : grid0.Coords) : Prop := (Scalar.cmpi .ne (Scalar.extui (Scalar.cmpi .eq (BitVec.ofNat 32 (i 1).val) 0#32)) 0#32) = 1#1
/-- The second branch (the weight product, the bias and the store of the output block) is taken where it is 3. -/
abbrev cond0_b (i : grid0.Coords) : Prop := k0_cond2 i = 1#1

/-- The offsets of every access of the body: zero on both axes. -/
theorem off_zero0 : (![0, 0] : Fin 2 → Nat) = fun _ => 0 := by
  funext a; fin_cases a <;> rfl

/-! ## The body, case by case -/

set_option maxHeartbeats 1000000 in
/-- FIRST contraction step of a row block: the accumulator is zeroed, then holds the partial product of this step's
    blocks added to zero. The output's staging buffer is not touched. -/
theorem body0_first (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : cond0_a i) (hc1 : ¬cond0_b i)
    (x0 : Vec F S512x2048 .f32) (x1 : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k0_pay2 x0 x1 (k0_pay1 (F := F)))) -∗ K ⟨⟩))
      ⊢ wp frame (wpE (defs₀ (F := F)) Variants.none c none) E (cc0__layer_kernel i arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%ds, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero0 inb_S512x128_S512x128_0_0 y⟩),
    View.canon_cons_unit_zero off_zero0]
  simp only [View.readAt_eq_ld, harg2.read_unread, harg3.read_unread, View.ld_unit_zero (S := S512x2048) off_zero0, View.ld_unit_zero (S := S2048x128) off_zero0, View.ld_unit_zero (S := S512x128) off_zero0, View.ld_unit_zero (S := S128x128) off_zero0, View.ld_unit_zero (S := S1x128) off_zero0,
    View.readCov_unit_zero (S := S512x128) _ off_zero0]

set_option maxHeartbeats 1000000 in
/-- A MIDDLE contraction step: the accumulator, at what the step before left, gains this step's partial product.
    The output's staging buffer is not touched. -/
theorem body0_mid (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond0_a i) (hc1 : ¬cond0_b i)
    (x0 : Vec F S512x2048 .f32) (x1 : Vec F S2048x128 .f32) (xs : Vec F S512x128 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k0_pay2 x0 x1 xs)) -∗ K ⟨⟩))
      ⊢ wp frame (wpE (defs₀ (F := F)) Variants.none c none) E (cc0__layer_kernel i arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero0 inb_S512x128_S512x128_0_0 y⟩),
    View.canon_cons_unit_zero off_zero0]
  simp only [View.readAt_eq_ld, harg2.read_unread, harg3.read_unread, harg7.read_unread, View.ld_unit_zero (S := S512x2048) off_zero0, View.ld_unit_zero (S := S2048x128) off_zero0, View.ld_unit_zero (S := S512x128) off_zero0, View.ld_unit_zero (S := S128x128) off_zero0, View.ld_unit_zero (S := S1x128) off_zero0]

set_option maxHeartbeats 1000000 in
/-- The LAST contraction step: the accumulator gains this step's partial product, and the output's staging buffer
    receives the finished accumulator times the weights, plus the bias (and, in the first layer, clipped at zero). -/
theorem body0_last (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond0_a i) (hc1 : cond0_b i)
    (x0 : Vec F S512x2048 .f32) (x1 : Vec F S2048x128 .f32) (x2 : Vec F S128x128 .f32) (x3 : Vec F S1x128 .f32)
    (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay3 (k0_pay2 x0 x1 xs) x2 x3)
            ∗ owns (c : Thread nD τ) arg7 fullShare (k0_pay2 x0 x1 xs)) -∗ K ⟨⟩))
      ⊢ wp frame (wpE (defs₀ (F := F)) Variants.none c none) E (cc0__layer_kernel i arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero off_zero0 inb_S512x128_S512x128_0_0 y⟩),
      View.canon_cons_unit_zero off_zero0]
    simp only [View.readAt_eq_ld, harg2.read_unread, harg3.read_unread, harg4.read_unread, harg5.read_unread, harg7.read_unread,
      View.ld_unit_zero (S := S512x2048) off_zero0, View.ld_unit_zero (S := S2048x128) off_zero0, View.ld_unit_zero (S := S512x128) off_zero0, View.ld_unit_zero (S := S128x128) off_zero0, View.ld_unit_zero (S := S1x128) off_zero0, View.readCov_unit_zero (S := S512x128) _ off_zero0]
  iexists _; isplitr
  swap; · iexact HS0
  ipureintro
  sl_unfold_words
  rw [View.read_writes_eq_canon _ _ _ (fun y => ⟨_, List.mem_cons_self, View.mem_set_unit_zero off_zero0 inb_S512x128_S512x128_0_0 y⟩),
    View.canon_cons_unit_zero off_zero0]
  simp only [View.readAt_eq_ld, harg2.read_unread, harg3.read_unread, harg7.read_unread, View.ld_unit_zero (S := S512x2048) off_zero0, View.ld_unit_zero (S := S2048x128) off_zero0, View.ld_unit_zero (S := S512x128) off_zero0, View.ld_unit_zero (S := S128x128) off_zero0, View.ld_unit_zero (S := S1x128) off_zero0]

end Cert.KernelIdeal.Layers

end
-- ==== Proof.KI.Inv0.lean ====
/-
  What pallas_call 0's body may use besides its windows' buffers: its accumulator (a scoped [512, 128] buffer), the core's
  other scoped buffers that are no staging buffer of this pipeline, and the generator register. The launch hands the region
  all of them at contents nobody names; the split and its converse let the invariant name the accumulator's contents.
-/
import proofs.«143792_g77017353552368_cont_sun_m_946_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator's buffer. -/
abbrev scM0 : Memref sig .tc .vmem S512x128 .f32 := Memref.whole cc0_scratch0

/-- The core's other scoped buffers that are no staging buffer of this pipeline, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region is the accumulator at some contents, the other scoped buffers and the generator register; -/
theorem PhiA0_split (c : Dev nD) :
    (Pipeline.ΦA spec0 c : sProp 𝕄) ⊢ iprop((∃ d, owns (c : Thread nD τ) scM0 fullShare d) ∗ others0 (F := F) c ∗ (∃ r, prngReg c r)) := by
  unfold Pipeline.ΦA; rw [scopedRest0_eq]; unfold others0; simp only [scM0, owns_whole]
  iintro ⟨⟨R0, R1, R2, R3, R4, R5, R6, R7, R8, R9⟩, Hg⟩
  isplitl [R0]; · iexact R0
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

/-- and back. -/
theorem PhiA0_join (c : Dev nD) :
    iprop((∃ d, owns (c : Thread nD τ) scM0 fullShare d) ∗ others0 (F := F) c ∗ (∃ r, prngReg c r)) ⊢ (Pipeline.ΦA spec0 c : sProp 𝕄) := by
  unfold Pipeline.ΦA; rw [scopedRest0_eq]; unfold others0; simp only [scM0, owns_whole]
  iintro ⟨R0, ⟨R1, R2, R3, R4, R5, R6, R7, R8, R9⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

end Cert.KernelIdeal.Layers

end
-- ==== Proof.KI.Region0.lean ====
/-
  Pallas_call 0 as a pipeline, at any contents `V` of the core's buffers when the region is entered: the blocks its four
  input windows hold at a grid point, what the accumulator holds after each point (a recursion on the point: reset at the
  first contraction step of a row block, stepped at the others), what the output window's buffer holds at the points that
  store it, the invariant that carries the accumulator from point to point, and the proof that the body meets the pipeline's
  obligation at every point.
-/
import proofs.«143792_g77017353552368_cont_sun_m_946_2_alg».proof.Proof.KI.Cases0
import proofs.«143792_g77017353552368_cont_sun_m_946_2_alg».proof.Proof.KI.Inv0

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The schedule in closed form -/

/-- The accumulator is zeroed at the points ≡ 0 (mod 4): the first contraction step of each row block. -/
theorem hcond0_a : ∀ t : Fin cfg0.N, cond0_a (grid0.coords t) ↔ t.val % 4 = 0 :=
  (by decide +kernel : ∀ t : Fin grid0.N, cond0_a (grid0.coords t) ↔ t.val % 4 = 0)
/-- The output block is stored at the points ≡ 3 (mod 4): the last contraction step of each row block. -/
theorem hcond0_b : ∀ t : Fin cfg0.N, cond0_b (grid0.coords t) ↔ t.val % 4 = 3 :=
  (by decide +kernel : ∀ t : Fin grid0.N, cond0_b (grid0.coords t) ↔ t.val % 4 = 3)
/-- Elsewhere the output window is idle, -/
theorem idle0_4 : ∀ t : Fin cfg0.N, ¬cond0_b (grid0.coords t) → cfg0.idle 4 (grid0.coords t) = true := by decide +kernel
/-- at those points it is live, -/
theorem live0_4 : ∀ t : Fin cfg0.N, cond0_b (grid0.coords t) → cfg0.idle 4 (grid0.coords t) = false := by decide +kernel
/-- and where it is idle the pipeline does not write its block back. -/
theorem noflush0_4 : ∀ t : Fin cfg0.N, ¬cond0_b (grid0.coords t) → (cfg0.win 4).flush t = false := by decide +kernel

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at their literal shapes: the [512, 2048] block of A, the [2048, 128] block of the features, the
    whole [128, 128] transposed weight and the [1, 128] bias row. -/
abbrev ablk0 (c : Dev nD) (t : Fin cfg0.N) : Vec F S512x2048 .f32 := iblk0 V c 0 t
abbrev xblk0 (c : Dev nD) (t : Fin cfg0.N) : Vec F S2048x128 .f32 := iblk0 V c 1 t
abbrev wblk0 (c : Dev nD) (t : Fin cfg0.N) : Vec F S128x128 .f32 := iblk0 V c 2 t
abbrev bblk0 (c : Dev nD) (t : Fin cfg0.N) : Vec F S1x128 .f32 := iblk0 V c 3 t

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator and the output block, point by point -/

/-- What the accumulator holds after the body at position `n`: at the first contraction step of a row block the step's
    partial product over zero, at every other step the partial product over what the step before left. -/
def accAt0 (c : Dev nD) : (n : ℕ) → n < cfg0.N → Vec F S512x128 .f32
  | 0, hn => k0_pay2 (ablk0 V c ⟨0, hn⟩) (xblk0 V c ⟨0, hn⟩) (k0_pay1 (F := F))
  | n + 1, hn =>
    if (n + 1) % 4 = 0 then k0_pay2 (ablk0 V c ⟨n + 1, hn⟩) (xblk0 V c ⟨n + 1, hn⟩) (k0_pay1 (F := F))
    else k0_pay2 (ablk0 V c ⟨n + 1, hn⟩) (xblk0 V c ⟨n + 1, hn⟩) (accAt0 c n (Nat.lt_of_succ_lt hn))

theorem accAt0_first (c : Dev nD) (t : Fin cfg0.N) (h : t.val % 4 = 0) :
    accAt0 V c t.val t.isLt = k0_pay2 (ablk0 V c t) (xblk0 V c t) (k0_pay1 (F := F)) := by
  obtain ⟨n, hn⟩ := t
  cases n with
  | zero => rfl
  | succ n => exact if_pos h

theorem accAt0_step (c : Dev nD) (t : Fin cfg0.N) (h : ¬t.val % 4 = 0) :
    accAt0 V c t.val t.isLt
      = k0_pay2 (ablk0 V c t) (xblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- What the output window's buffer holds after the body at a point that stores it: the accumulator times the weights,
    plus the bias. (At the other points the window is idle and this term is not consulted.) -/
def outAt0 (c : Dev nD) (t : Fin cfg0.N) : Vec F S512x128 .f32 :=
  k0_pay3 (accAt0 V c t.val t.isLt) (wblk0 V c t) (bblk0 V c t)

/-! ## The invariant between points -/

/-- The invariant before position `n`: before the first point what the launch hands the region; afterwards the accumulator
    at what the point before left in it, the other scoped buffers and the generator register. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (accAt0 V c n hn) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (accAt0 V c (n - 1) (by omega)) ∗ others0 (F := F) c ∗ (∃ r, prngReg c r)) := by
  cases n with
  | zero => exact absurd rfl hz
  | succ n => rfl

/-! ## The pipeline's proof data -/

/-- The arrays as the region finds them; after the body each input's buffer at its block and the output's at `outAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (st0_0 t) fullShare (iblk0 V c 0 t) := by
  rw [← after0_0]
theorem leaves0_1 (c : Dev nD) (t : Fin cfg0.N) : (dat0 V c).leavesExact 1 t = owns (c : Thread nD τ) (st0_1 t) fullShare (iblk0 V c 1 t) := by
  rw [← after0_1]
theorem leaves0_2 (c : Dev nD) (t : Fin cfg0.N) : (dat0 V c).leavesExact 2 t = owns (c : Thread nD τ) (st0_2 t) fullShare (iblk0 V c 2 t) := by
  rw [← after0_2]
theorem leaves0_3 (c : Dev nD) (t : Fin cfg0.N) : (dat0 V c).leavesExact 3 t = owns (c : Thread nD τ) (st0_3 t) fullShare (iblk0 V c 3 t) := by
  rw [← after0_3]

set_option maxHeartbeats 4000000 in
/-- The body at any point. The inputs' buffers hold their blocks; the point's position in its row block says which case it
    is; the invariant hands the body the accumulator at what the point before left (at anything where the case zeroes it) and
    takes it back at this point's contents; the output window is handed back untouched where the case does not store it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, PhiS0_castSucc V c t]
  have hN : t.val < 64 := lt_of_lt_of_eq t.isLt (show cfg0.N = 64 from N_0)
  by_cases h3 : t.val % 4 = 3
  · -- the last contraction step of a row block
    have h0 : ¬t.val % 4 = 0 := by omega
    have hz : t.val ≠ 0 := by omega
    rw [show (dat0 V c).leavesExact 4 t = owns (c : Thread nD τ) (st0_4 t) fullShare ((dat0 V c).after 4 t) from by
      unfold Dat.leavesExact; rw [live0_4 t ((hcond0_b t).mpr h3)], after0_4]
    unfold outAt0
    rw [accAt0_step V c t h0, PhiS0_pos V c _ _ hz]
    iintro ⟨⟨HS, Hoth, Hg⟩, Ho, ⟨%d0, H0⟩, ⟨%d1, H1⟩, ⟨%d2, H2⟩, ⟨%d3, H3⟩, ⟨%d4, H4⟩⟩
    iapply (body0_last c (grid0.coords t) _ _ _ _ _ _ _ _ _ _ _ _ (fun h => h0 ((hcond0_a t).mp h)) ((hcond0_b t).mpr h3)
      (ablk0 V c t) (xblk0 V c t) (wblk0 V c t) (bblk0 V c t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idle0_4 t (fun h => h3 ((hcond0_b t).mp h))) (noflush0_4 t (fun h => h3 ((hcond0_b t).mp h)))]
    by_cases h0 : t.val % 4 = 0
    · -- the first contraction step: the accumulator is zeroed, whatever it held
      rw [accAt0_first V c t h0]
      have hpre : PhiS0 V c t.val (Nat.le_of_lt t.isLt)
          ⊢ iprop((∃ d, owns (c : Thread nD τ) scM0 fullShare d) ∗ others0 (F := F) c ∗ (∃ r, prngReg c r)) := by
        by_cases hz : t.val = 0
        · rw [PhiS0_zero V c _ _ hz]; exact PhiA0_split c
        · rw [PhiS0_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hpre $$ HΦ
      icases HΦ' with ⟨HS, Hoth, Hg⟩
      iapply (body0_first c (grid0.coords t) _ _ _ _ _ _ _ _ _ _ _ _ ((hcond0_a t).mpr h0) (fun h => h3 ((hcond0_b t).mp h))
        (ablk0 V c t) (xblk0 V c t) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · -- a middle contraction step
      have hz : t.val ≠ 0 := fun e => h0 (by rw [e])
      rw [accAt0_step V c t h0, PhiS0_pos V c _ _ hz]
      iintro ⟨⟨HS, Hoth, Hg⟩, Ho, ⟨%d0, H0⟩, ⟨%d1, H1⟩, ⟨%d2, H2⟩, ⟨%d3, H3⟩, ⟨%d4, H4⟩⟩
      iapply (body0_mid c (grid0.coords t) _ _ _ _ _ _ _ _ _ _ _ _ (fun h => h0 ((hcond0_a t).mp h)) (fun h => h3 ((hcond0_b t).mp h))
        (ablk0 V c t) (xblk0 V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne]
  refine BIBase.Entails.trans ?_ (PhiA0_join c)
  iintro ⟨HS, Hoth, Hg⟩
  isplitl [HS]; · iexists _; iexact HS
  isplitl [Hoth]; · iexact Hoth
  iexact Hg

end

end Cert.KernelIdeal.Layers

end
-- ==== Proof.KI.Cases1.lean ====
/-
  The layer kernel of pallas_call 1, one grid point at a time. A grid point is a pair (row block, contraction step); the body
  keeps a [512, 128] accumulator in scratch across the four contraction steps of a row block. Three cases by the step:
  the first zeroes the accumulator and adds the step's partial product A_blk · X_blk; a middle one adds its partial product
  to what the step before left; the last adds its partial product and then stores accumulator · Wᵀ + bias (the first layer:
  clipped at zero) into the output block. Each case is stated as what the body leaves in the accumulator and in the output
  block as a function of the blocks it read, the arithmetic kept folded in the payload terms.
-/
import proofs.«143792_g77017353552368_cont_sun_m_946_2_alg».proof.Proof.Gen.KernelIdeal.Launch
import proofs.«143792_g77017353552368_cont_sun_m_946_2_alg».proof.Proof.Gen.KernelIdeal.Skeleton
import proofs.«143792_g77017353552368_cont_sun_m_946_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the layer kernel, and the zero offsets -/

/-- The first branch (the accumulator is zeroed) is taken where the contraction coordinate is 0. -/
abbrev cond1_a (i : grid1.Coords) : Prop := (Scalar.cmpi .ne (Scalar.extui (Scalar.cmpi .eq (BitVec.ofNat 32 (i 1).val) 0#32)) 0#32) = 1#1
/-- The second branch (the weight product, the bias and the store of the output block) is taken where it is 3. -/
abbrev cond1_b (i : grid1.Coords) : Prop := k1_cond2 i = 1#1

/-- The offsets of every access of the body: zero on both axes. -/
theorem off_zero1 : (![0, 0] : Fin 2 → Nat) = fun _ => 0 := by
  funext a; fin_cases a <;> rfl

/-! ## The body, case by case -/

set_option maxHeartbeats 1000000 in
/-- FIRST contraction step of a row block: the accumulator is zeroed, then holds the partial product of this step's
    blocks added to zero. The output's staging buffer is not touched. -/
theorem body1_first (c : Dev nD) (i : grid1.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : cond1_a i) (hc1 : ¬cond1_b i)
    (x0 : Vec F S512x2048 .f32) (x1 : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 x0 x1 (k1_pay1 (F := F)))) -∗ K ⟨⟩))
      ⊢ wp frame (wpE (defs₀ (F := F)) Variants.none c none) E (cc1__layer_kernel i arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%ds, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero1 inb_S512x128_S512x128_0_0 y⟩),
    View.canon_cons_unit_zero off_zero1]
  simp only [View.readAt_eq_ld, harg2.read_unread, harg3.read_unread, View.ld_unit_zero (S := S512x2048) off_zero1, View.ld_unit_zero (S := S2048x128) off_zero1, View.ld_unit_zero (S := S512x128) off_zero1, View.ld_unit_zero (S := S128x128) off_zero1, View.ld_unit_zero (S := S1x128) off_zero1,
    View.readCov_unit_zero (S := S512x128) _ off_zero1]

set_option maxHeartbeats 1000000 in
/-- A MIDDLE contraction step: the accumulator, at what the step before left, gains this step's partial product.
    The output's staging buffer is not touched. -/
theorem body1_mid (c : Dev nD) (i : grid1.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond1_a i) (hc1 : ¬cond1_b i)
    (x0 : Vec F S512x2048 .f32) (x1 : Vec F S2048x128 .f32) (xs : Vec F S512x128 .f32) (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k1_pay2 x0 x1 xs)) -∗ K ⟨⟩))
      ⊢ wp frame (wpE (defs₀ (F := F)) Variants.none c none) E (cc1__layer_kernel i arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self, View.mem_set_unit_zero off_zero1 inb_S512x128_S512x128_0_0 y⟩),
    View.canon_cons_unit_zero off_zero1]
  simp only [View.readAt_eq_ld, harg2.read_unread, harg3.read_unread, harg7.read_unread, View.ld_unit_zero (S := S512x2048) off_zero1, View.ld_unit_zero (S := S2048x128) off_zero1, View.ld_unit_zero (S := S512x128) off_zero1, View.ld_unit_zero (S := S128x128) off_zero1, View.ld_unit_zero (S := S1x128) off_zero1]

set_option maxHeartbeats 1000000 in
/-- The LAST contraction step: the accumulator gains this step's partial product, and the output's staging buffer
    receives the finished accumulator times the weights, plus the bias (and, in the first layer, clipped at zero). -/
theorem body1_last (c : Dev nD) (i : grid1.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole)
    (hc0 : ¬cond1_a i) (hc1 : cond1_b i)
    (x0 : Vec F S512x2048 .f32) (x1 : Vec F S2048x128 .f32) (x2 : Vec F S128x128 .f32) (x3 : Vec F S1x128 .f32)
    (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 (k1_pay2 x0 x1 xs) x2 x3)
            ∗ owns (c : Thread nD τ) arg7 fullShare (k1_pay2 x0 x1 xs)) -∗ K ⟨⟩))
      ⊢ wp frame (wpE (defs₀ (F := F)) Variants.none c none) E (cc1__layer_kernel i arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_cons_self, View.mem_set_unit_zero off_zero1 inb_S512x128_S512x128_0_0 y⟩),
      View.canon_cons_unit_zero off_zero1]
    simp only [View.readAt_eq_ld, harg2.read_unread, harg3.read_unread, harg4.read_unread, harg5.read_unread, harg7.read_unread,
      View.ld_unit_zero (S := S512x2048) off_zero1, View.ld_unit_zero (S := S2048x128) off_zero1, View.ld_unit_zero (S := S512x128) off_zero1, View.ld_unit_zero (S := S128x128) off_zero1, View.ld_unit_zero (S := S1x128) off_zero1, View.readCov_unit_zero (S := S512x128) _ off_zero1]
  iexists _; isplitr
  swap; · iexact HS0
  ipureintro
  sl_unfold_words
  rw [View.read_writes_eq_canon _ _ _ (fun y => ⟨_, List.mem_cons_self, View.mem_set_unit_zero off_zero1 inb_S512x128_S512x128_0_0 y⟩),
    View.canon_cons_unit_zero off_zero1]
  simp only [View.readAt_eq_ld, harg2.read_unread, harg3.read_unread, harg7.read_unread, View.ld_unit_zero (S := S512x2048) off_zero1, View.ld_unit_zero (S := S2048x128) off_zero1, View.ld_unit_zero (S := S512x128) off_zero1, View.ld_unit_zero (S := S128x128) off_zero1, View.ld_unit_zero (S := S1x128) off_zero1]

end Cert.KernelIdeal.Layers

end
-- ==== Proof.KI.Inv1.lean ====
/-
  What pallas_call 1's body may use besides its windows' buffers: its accumulator (a scoped [512, 128] buffer), the core's
  other scoped buffers that are no staging buffer of this pipeline, and the generator register. The launch hands the region
  all of them at contents nobody names; the split and its converse let the invariant name the accumulator's contents.
-/
import proofs.«143792_g77017353552368_cont_sun_m_946_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator's buffer. -/
abbrev scM1 : Memref sig .tc .vmem S512x128 .f32 := Memref.whole cc1_scratch0

/-- The core's other scoped buffers that are no staging buffer of this pipeline, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- What the launch hands the region is the accumulator at some contents, the other scoped buffers and the generator register; -/
theorem PhiA1_split (c : Dev nD) :
    (Pipeline.ΦA spec1 c : sProp 𝕄) ⊢ iprop((∃ d, owns (c : Thread nD τ) scM1 fullShare d) ∗ others1 (F := F) c ∗ (∃ r, prngReg c r)) := by
  unfold Pipeline.ΦA; rw [scopedRest1_eq]; unfold others1; simp only [scM1, owns_whole]
  iintro ⟨⟨R0, R1, R2, R3, R4, R5, R6, R7, R8, R9⟩, Hg⟩
  isplitl [R9]; · iexact R9
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

/-- and back. -/
theorem PhiA1_join (c : Dev nD) :
    iprop((∃ d, owns (c : Thread nD τ) scM1 fullShare d) ∗ others1 (F := F) c ∗ (∃ r, prngReg c r)) ⊢ (Pipeline.ΦA spec1 c : sProp 𝕄) := by
  unfold Pipeline.ΦA; rw [scopedRest1_eq]; unfold others1; simp only [scM1, owns_whole]
  iintro ⟨R9, ⟨R0, R1, R2, R3, R4, R5, R6, R7, R8⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  iexact Hg

end Cert.KernelIdeal.Layers

end
-- ==== Proof.KI.Region1.lean ====
/-
  Pallas_call 1 as a pipeline, at any contents `V` of the core's buffers when the region is entered: the blocks its four
  input windows hold at a grid point, what the accumulator holds after each point (a recursion on the point: reset at the
  first contraction step of a row block, stepped at the others), what the output window's buffer holds at the points that
  store it, the invariant that carries the accumulator from point to point, and the proof that the body meets the pipeline's
  obligation at every point.
-/
import proofs.«143792_g77017353552368_cont_sun_m_946_2_alg».proof.Proof.KI.Cases1
import proofs.«143792_g77017353552368_cont_sun_m_946_2_alg».proof.Proof.KI.Inv1

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The schedule in closed form -/

/-- The accumulator is zeroed at the points ≡ 0 (mod 4): the first contraction step of each row block. -/
theorem hcond1_a : ∀ t : Fin cfg1.N, cond1_a (grid1.coords t) ↔ t.val % 4 = 0 :=
  (by decide +kernel : ∀ t : Fin grid1.N, cond1_a (grid1.coords t) ↔ t.val % 4 = 0)
/-- The output block is stored at the points ≡ 3 (mod 4): the last contraction step of each row block. -/
theorem hcond1_b : ∀ t : Fin cfg1.N, cond1_b (grid1.coords t) ↔ t.val % 4 = 3 :=
  (by decide +kernel : ∀ t : Fin grid1.N, cond1_b (grid1.coords t) ↔ t.val % 4 = 3)
/-- Elsewhere the output window is idle, -/
theorem idle1_4 : ∀ t : Fin cfg1.N, ¬cond1_b (grid1.coords t) → cfg1.idle 4 (grid1.coords t) = true := by decide +kernel
/-- at those points it is live, -/
theorem live1_4 : ∀ t : Fin cfg1.N, cond1_b (grid1.coords t) → cfg1.idle 4 (grid1.coords t) = false := by decide +kernel
/-- and where it is idle the pipeline does not write its block back. -/
theorem noflush1_4 : ∀ t : Fin cfg1.N, ¬cond1_b (grid1.coords t) → (cfg1.win 4).flush t = false := by decide +kernel

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at their literal shapes: the [512, 2048] block of A, the [2048, 128] block of the features, the
    whole [128, 128] transposed weight and the [1, 128] bias row. -/
abbrev ablk1 (c : Dev nD) (t : Fin cfg1.N) : Vec F S512x2048 .f32 := iblk1 V c 0 t
abbrev xblk1 (c : Dev nD) (t : Fin cfg1.N) : Vec F S2048x128 .f32 := iblk1 V c 1 t
abbrev wblk1 (c : Dev nD) (t : Fin cfg1.N) : Vec F S128x128 .f32 := iblk1 V c 2 t
abbrev bblk1 (c : Dev nD) (t : Fin cfg1.N) : Vec F S1x128 .f32 := iblk1 V c 3 t

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, point by point -/

/-- What the accumulator holds after the body at position `n`: at the first contraction step of a row block the step's
    partial product over zero, at every other step the partial product over what the step before left. -/
def accAt1 (c : Dev nD) : (n : ℕ) → n < cfg1.N → Vec F S512x128 .f32
  | 0, hn => k1_pay2 (ablk1 V c ⟨0, hn⟩) (xblk1 V c ⟨0, hn⟩) (k1_pay1 (F := F))
  | n + 1, hn =>
    if (n + 1) % 4 = 0 then k1_pay2 (ablk1 V c ⟨n + 1, hn⟩) (xblk1 V c ⟨n + 1, hn⟩) (k1_pay1 (F := F))
    else k1_pay2 (ablk1 V c ⟨n + 1, hn⟩) (xblk1 V c ⟨n + 1, hn⟩) (accAt1 c n (Nat.lt_of_succ_lt hn))

theorem accAt1_first (c : Dev nD) (t : Fin cfg1.N) (h : t.val % 4 = 0) :
    accAt1 V c t.val t.isLt = k1_pay2 (ablk1 V c t) (xblk1 V c t) (k1_pay1 (F := F)) := by
  obtain ⟨n, hn⟩ := t
  cases n with
  | zero => rfl
  | succ n => exact if_pos h

theorem accAt1_step (c : Dev nD) (t : Fin cfg1.N) (h : ¬t.val % 4 = 0) :
    accAt1 V c t.val t.isLt
      = k1_pay2 (ablk1 V c t) (xblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- What the output window's buffer holds after the body at a point that stores it: the accumulator times the weights,
    plus the bias. (At the other points the window is idle and this term is not consulted.) -/
def outAt1 (c : Dev nD) (t : Fin cfg1.N) : Vec F S512x128 .f32 :=
  k1_pay3 (accAt1 V c t.val t.isLt) (wblk1 V c t) (bblk1 V c t)

/-! ## The invariant between points -/

/-- The invariant before position `n`: before the first point what the launch hands the region; afterwards the accumulator
    at what the point before left in it, the other scoped buffers and the generator register. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ others1 (F := F) c ∗ (∃ r, prngReg c r)) := by
  cases n with
  | zero => exact absurd rfl hz
  | succ n => rfl

/-! ## The pipeline's proof data -/

/-- The arrays as the region finds them; after the body each input's buffer at its block and the output's at `outAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (st1_0 t) fullShare (iblk1 V c 0 t) := by
  rw [← after1_0]
theorem leaves1_1 (c : Dev nD) (t : Fin cfg1.N) : (dat1 V c).leavesExact 1 t = owns (c : Thread nD τ) (st1_1 t) fullShare (iblk1 V c 1 t) := by
  rw [← after1_1]
theorem leaves1_2 (c : Dev nD) (t : Fin cfg1.N) : (dat1 V c).leavesExact 2 t = owns (c : Thread nD τ) (st1_2 t) fullShare (iblk1 V c 2 t) := by
  rw [← after1_2]
theorem leaves1_3 (c : Dev nD) (t : Fin cfg1.N) : (dat1 V c).leavesExact 3 t = owns (c : Thread nD τ) (st1_3 t) fullShare (iblk1 V c 3 t) := by
  rw [← after1_3]

set_option maxHeartbeats 4000000 in
/-- The body at any point. The inputs' buffers hold their blocks; the point's position in its row block says which case it
    is; the invariant hands the body the accumulator at what the point before left (at anything where the case zeroes it) and
    takes it back at this point's contents; the output window is handed back untouched where the case does not store it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, PhiS1_castSucc V c t]
  have hN : t.val < 64 := lt_of_lt_of_eq t.isLt (show cfg1.N = 64 from N_1)
  by_cases h3 : t.val % 4 = 3
  · -- the last contraction step of a row block
    have h0 : ¬t.val % 4 = 0 := by omega
    have hz : t.val ≠ 0 := by omega
    rw [show (dat1 V c).leavesExact 4 t = owns (c : Thread nD τ) (st1_4 t) fullShare ((dat1 V c).after 4 t) from by
      unfold Dat.leavesExact; rw [live1_4 t ((hcond1_b t).mpr h3)], after1_4]
    unfold outAt1
    rw [accAt1_step V c t h0, PhiS1_pos V c _ _ hz]
    iintro ⟨⟨HS, Hoth, Hg⟩, Ho, ⟨%d0, H0⟩, ⟨%d1, H1⟩, ⟨%d2, H2⟩, ⟨%d3, H3⟩, ⟨%d4, H4⟩⟩
    iapply (body1_last c (grid1.coords t) _ _ _ _ _ _ _ _ _ _ _ _ (fun h => h0 ((hcond1_a t).mp h)) ((hcond1_b t).mpr h3)
      (ablk1 V c t) (xblk1 V c t) (wblk1 V c t) (bblk1 V c t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idle1_4 t (fun h => h3 ((hcond1_b t).mp h))) (noflush1_4 t (fun h => h3 ((hcond1_b t).mp h)))]
    by_cases h0 : t.val % 4 = 0
    · -- the first contraction step: the accumulator is zeroed, whatever it held
      rw [accAt1_first V c t h0]
      have hpre : PhiS1 V c t.val (Nat.le_of_lt t.isLt)
          ⊢ iprop((∃ d, owns (c : Thread nD τ) scM1 fullShare d) ∗ others1 (F := F) c ∗ (∃ r, prngReg c r)) := by
        by_cases hz : t.val = 0
        · rw [PhiS1_zero V c _ _ hz]; exact PhiA1_split c
        · rw [PhiS1_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hpre $$ HΦ
      icases HΦ' with ⟨HS, Hoth, Hg⟩
      iapply (body1_first c (grid1.coords t) _ _ _ _ _ _ _ _ _ _ _ _ ((hcond1_a t).mpr h0) (fun h => h3 ((hcond1_b t).mp h))
        (ablk1 V c t) (xblk1 V c t) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · -- a middle contraction step
      have hz : t.val ≠ 0 := fun e => h0 (by rw [e])
      rw [accAt1_step V c t h0, PhiS1_pos V c _ _ hz]
      iintro ⟨⟨HS, Hoth, Hg⟩, Ho, ⟨%d0, H0⟩, ⟨%d1, H1⟩, ⟨%d2, H2⟩, ⟨%d3, H3⟩, ⟨%d4, H4⟩⟩
      iapply (body1_mid c (grid1.coords t) _ _ _ _ _ _ _ _ _ _ _ _ (fun h => h0 ((hcond1_a t).mp h)) (fun h => h3 ((hcond1_b t).mp h))
        (ablk1 V c t) (xblk1 V c t) _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne]
  refine BIBase.Entails.trans ?_ (PhiA1_join c)
  iintro ⟨HS, Hoth, Hg⟩
  isplitl [HS]; · iexists _; iexact HS
  isplitl [Hoth]; · iexact Hoth
  iexact Hg

end

end Cert.KernelIdeal.Layers

end
-- ==== Proof.KI.Run.lean ====
/-
  The whole program's run: the two host stretches (each a transpose of a weight and a reshape of a bias) and the two
  pallas_calls, composed in order. The buffer contents at each boundary are named: the launch memory, then after the
  first host stretch, then with the first layer's output array at what its write-backs leave, then after the second host
  stretch, then with the second layer's output array at what its write-backs leave. Every weakly fair execution terminates
  with every unscoped buffer at the last of these; the argument arrays are read back through the chain to the launch memory.
-/
import proofs.«143792_g77017353552368_cont_sun_m_946_2_alg».proof.Proof.KI.Region0
import proofs.«143792_g77017353552368_cont_sun_m_946_2_alg».proof.Proof.KI.Region1

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pallas_call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each host stretch leaves alone -/

/-- The first host stretch writes only the transposed weight and the reshaped bias of the first layer. -/
theorem W1_of (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))
/-- The second writes only those of the second layer. -/
theorem W3_of (c : Dev nD) (b : Ref sig .tc) (h0 : b ≠ main_v3) (h1 : b ≠ main_v4) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))

/-- An argument array reaches the end as launched: no host operation writes it, and a pallas_call at most reads it
    through an input window. -/
theorem W4_arg (c : Dev nD) (b : Ref sig .tc) (hb4 : ∀ w, Pipeline.arrRef spec1 w ≠ b) (hb3 : b ≠ main_v3 ∧ b ≠ main_v4)
    (hb2 : ∀ w, Pipeline.arrRef spec0 w ≠ b) (hb1 : b ≠ main_v0 ∧ b ≠ main_v1) :
    W4 m ρ c (Proc.devRef .tc b) = m ((c : Thread nD τ).loc b) :=
  (W4_of_ne m ρ c b hb4).trans ((W3_of m ρ c b hb3.1 hb3.2).trans ((W2_of_ne m ρ c b hb2).trans ((W1_of m ρ c b hb1.1 hb1.2).trans rfl)))

/-- The adjacency is an input window of both pallas_calls: each leaves it as it found it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide) (by decide)
    _ = m ((c : Thread nD τ).loc main_arg0) := rfl
/-- The features are an input window of the first pallas_call only. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide) (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide) (by decide)
    _ = m ((c : Thread nD τ).loc main_arg1) := rfl
/-- The weights and biases are no window's array: every item passes them by. -/
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)
theorem W4_main_arg4 (c : Dev nD) : W4 m ρ c (Proc.devRef .tc main_arg4) = m ((c : Thread nD τ).loc main_arg4) :=
  W4_arg m ρ c main_arg4 (by decide) (by decide) (by decide) (by decide)
theorem W4_main_arg5 (c : Dev nD) : W4 m ρ c (Proc.devRef .tc main_arg5) = m ((c : Thread nD τ).loc main_arg5) :=
  W4_arg m ρ c main_arg5 (by decide) (by decide) (by decide) (by decide)

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_alloc_none : (hostOps0 : List (HloOp τ sig (Elt F))).Forall fun op => op.fresh = ∅ := by
  simp only [List.Forall]; repeat' constructor
theorem hostOps1_alloc_none : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Pallas_call 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four items in order. -/
abbrev segs : List (Pipeline.Seg (pcfgs (F := F)) adm (pdats m ρ) () defs₀ 𝒱₀ L lv) :=
  [ .host (hseg hostOps0 hostOps0_sub hostOps0_alloc_none (W0 m ρ)),
    .region (reg0 m ρ),
    .host (hseg hostOps1 hostOps1_sub hostOps1_alloc_none (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Layers

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Value.Payloads.lean ====
/-
  The layer kernel's three stored values read at an entry (r, q), over the extended reals: the zeroed accumulator is 0;
  the stepped accumulator is its old entry plus the step's partial product Σ_kk a (r, kk) · x (kk, q) (the bf16 casts are the
  identity here, the product is taken into a zero accumulator); the output block is Σ_j acc (r, j) · w (j, q) plus the bias
  row's entry q, in the first layer clipped at zero.

  Each value is a short chain of elementwise and layout operations, read one operation at a time: a shape cast to the
  same shape is the identity; a sum, a maximum and a splat at an entry are the sum, the maximum and the scalar; the f32
  zero pattern denotes 0; the [1, 128] bias row broadcast down the rows, read at (r, q), is the row at (0, q); and both
  products carry the dimension numbers "contract the left operand's axis 1 with the right operand's axis 0, no batch
  axes", so that into the zero accumulator their entry (r, q) is the sum over the contracted coordinate of the operands'
  products.
-/
import proofs.«143792_g77017353552368_cont_sun_m_946_2_alg».proof.Proof.Gen.KernelIdeal.Skeleton
import proofs.«143792_g77017353552368_cont_sun_m_946_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen
open Idealize.ShloMosaic Idealize.ShloMosaic.TcCoe Idealize.ShloMosaic.ValueIdx Idealize.SL.Sem

/-! ## Shared facts -/

/-- The adjacency product's dimension numbers are the plain [512, 2048] x [2048, 128] product's. -/
theorem dot_big_eq : dot_S512x2048_S2048x128_S512x128_1_0_0_1_n_n = DotDims.plain 512 2048 128 := rfl

/-- The weight product's dimension numbers are the plain [512, 128] x [128, 128] product's. -/
theorem dot_small_eq : dot_S512x128_S128x128_S512x128_1_0_0_1_n_n = DotDims.plain 512 128 128 := rfl

/-- The splat of the f32 zero pattern is 0 at every entry. -/
theorem zero_splat_apply (i : S512x128.Idx) :
    broadcast S512x128 (FloatOps.ofBits (F := Ideal) FTy.f32 0x00000000#32) i = 0 := Ideal.ofBits_zero_f32

/-- The bias row broadcast down the 512 rows, read at (r, q), is the row's entry q. -/
theorem bias_apply (b : Vec Ideal S1x128 .f32) (r : Fin 512) (q : Fin 128) :
    broadcastTo S512x128 b broadcasts_S1x128_S512x128 (ix2 r q) = b (ix2 0 q) := by
  refine broadcastTo_apply b broadcasts_S1x128_S512x128 (ix2 r q) (ix2 0 q) fun a => ?_
  match a with
  | ⟨0, _⟩ => rfl
  | ⟨1, _⟩ => rfl

/-- The adjacency product into the zero accumulator at (r, q): the bf16 casts are the identity. -/
theorem prod_big_apply (x0 : Vec Ideal S512x2048 .f32) (x1 : Vec Ideal S2048x128 .f32) (r : Fin 512) (q : Fin 128) :
    matmul (F := Ideal) dot_S512x2048_S2048x128_S512x128_1_0_0_1_n_n none (truncf FTy.bf16 x0 bitsLt_bf16_f32)
        (truncf FTy.bf16 x1 bitsLt_bf16_f32) (constant S512x128 FTy.f32 0x00000000#32) (ix2 r q)
      = ∑ kk : Fin 2048, x0 (ix2 r kk) * x1 (ix2 kk q) := by
  rw [dot_big_eq]
  exact Cert.PlainMatmul.apply none (truncf FTy.bf16 x0 bitsLt_bf16_f32) (truncf FTy.bf16 x1 bitsLt_bf16_f32) r q

/-- The weight product into the zero accumulator at (r, q). -/
theorem prod_small_apply (a : Vec Ideal S512x128 .f32) (w : Vec Ideal S128x128 .f32) (r : Fin 512) (q : Fin 128) :
    matmul (F := Ideal) (φ₁ := FTy.f32) (φ₂ := FTy.f32) dot_S512x128_S128x128_S512x128_1_0_0_1_n_n (some ContractPrecision.fp32) a w
        (constant S512x128 FTy.f32 0x00000000#32) (ix2 r q)
      = ∑ j : Fin 128, a (ix2 r j) * w (ix2 j q) := by
  rw [dot_small_eq]
  exact Cert.PlainMatmul.apply (some ContractPrecision.fp32) a w r q

/-! ## Pallas_call 0 -/

theorem pay1_apply0 (r : Fin 512) (q : Fin 128) : k0_pay1 (F := Ideal) (ix2 r q) = 0 := by
  unfold k0_pay1
  rw [shapeCast_self]
  exact zero_splat_apply (ix2 r q)

theorem pay2_apply0 (x0 : Vec Ideal S512x2048 .f32) (x1 : Vec Ideal S2048x128 .f32) (xs : Vec Ideal S512x128 .f32) (r : Fin 512) (q : Fin 128) :
    k0_pay2 (F := Ideal) x0 x1 xs (ix2 r q) = xs (ix2 r q) + ∑ kk : Fin 2048, x0 (ix2 r kk) * x1 (ix2 kk q) := by
  unfold k0_pay2
  rw [shapeCast_self, addf_apply, prod_big_apply]

theorem pay3_apply0 (a : Vec Ideal S512x128 .f32) (w : Vec Ideal S128x128 .f32) (b : Vec Ideal S1x128 .f32) (r : Fin 512) (q : Fin 128) :
    k0_pay3 (F := Ideal) a w b (ix2 r q) = max ((∑ j : Fin 128, a (ix2 r j) * w (ix2 j q)) + b (ix2 0 q)) 0 := by
  unfold k0_pay3
  rw [maximumf_apply, addf_apply, shapeCast_self, shapeCast_self, prod_small_apply, bias_apply, zero_splat_apply]

/-! ## Pallas_call 1 -/

theorem pay1_apply1 (r : Fin 512) (q : Fin 128) : k1_pay1 (F := Ideal) (ix2 r q) = 0 := by
  unfold k1_pay1
  rw [shapeCast_self]
  exact zero_splat_apply (ix2 r q)

theorem pay2_apply1 (x0 : Vec Ideal S512x2048 .f32) (x1 : Vec Ideal S2048x128 .f32) (xs : Vec Ideal S512x128 .f32) (r : Fin 512) (q : Fin 128) :
    k1_pay2 (F := Ideal) x0 x1 xs (ix2 r q) = xs (ix2 r q) + ∑ kk : Fin 2048, x0 (ix2 r kk) * x1 (ix2 kk q) := by
  unfold k1_pay2
  rw [shapeCast_self, shapeCast_self, addf_apply, prod_big_apply]

theorem pay3_apply1 (a : Vec Ideal S512x128 .f32) (w : Vec Ideal S128x128 .f32) (b : Vec Ideal S1x128 .f32) (r : Fin 512) (q : Fin 128) :
    k1_pay3 (F := Ideal) a w b (ix2 r q) = (∑ j : Fin 128, a (ix2 r j) * w (ix2 j q)) + b (ix2 0 q) := by
  unfold k1_pay3
  rw [addf_apply, shapeCast_self, shapeCast_self, prod_small_apply, bias_apply]

end Cert.KernelIdeal.Layers

end
-- ==== Proof.LibDenseGcn.lean ====
/-
  Two dense graph-convolution layers over the extended reals, as plain functions of matrices indexed by `Fin`.

  One layer takes the adjacency `A` (8192 × 8192), node features `X` (8192 × 128), a weight `W` (128 × 128, applied
  transposed) and a bias `b`: entry (R, q) is  act ( Σ_j (Σ_k A R k · X k j) · W q j  +  b q ),  with `act` the clip at
  zero in the first layer and the identity in the second. The kernel forms the inner sum Σ_k in four steps of 2048
  columns of `A`, starting from zero; `sum_steps` says that the four partial sums added up from zero are the whole sum.
  Nothing here needs the inputs finite: addition on the extended reals is commutative and associative, and that is all the
  regrouping uses.
-/
import Mathlib.Data.EReal.Operations
import Mathlib.Algebra.BigOperators.Group.Finset.Basic
import Mathlib.Algebra.BigOperators.Fin
import Mathlib.Data.Fintype.BigOperators
import Mathlib.Logic.Equiv.Fin.Basic

noncomputable section

namespace Cert.DenseGcn

open scoped BigOperators

/-- The aggregated features: row `R` of `A` against column `j` of `X`. -/
def agg (A : Fin 8192 → Fin 8192 → EReal) (X : Fin 8192 → Fin 128 → EReal) (R : Fin 8192) (j : Fin 128) : EReal :=
  ∑ k : Fin 8192, A R k * X k j

/-- One layer: the aggregated features times the transposed weight, plus the bias, through `act`. -/
def layer (act : EReal → EReal) (A : Fin 8192 → Fin 8192 → EReal) (X : Fin 8192 → Fin 128 → EReal)
    (W : Fin 128 → Fin 128 → EReal) (b : Fin 128 → EReal) (R : Fin 8192) (q : Fin 128) : EReal :=
  act ((∑ j : Fin 128, agg A X R j * W q j) + b q)

/-- The clip at zero. -/
def clip (x : EReal) : EReal := max x 0

/-- Both layers: the second reads the first's output as its features. -/
def twoLayers (A : Fin 8192 → Fin 8192 → EReal) (X : Fin 8192 → Fin 128 → EReal)
    (W1 : Fin 128 → Fin 128 → EReal) (b1 : Fin 128 → EReal) (W2 : Fin 128 → Fin 128 → EReal) (b2 : Fin 128 → EReal) :
    Fin 8192 → Fin 128 → EReal :=
  layer id A (layer clip A X W1 b1) W2 b2

/-- Column `2048 · s + kk` of step `s`. -/
def col (s : Fin 4) (kk : Fin 2048) : Fin 8192 := ⟨2048 * s.val + kk.val, by have := s.isLt; have := kk.isLt; omega⟩

/-- Four steps of 2048 columns are the 8192 columns: a sum over all columns is the double sum over the steps and the
    columns of a step. -/
theorem sum_steps {M : Type} [AddCommMonoid M] (f : Fin 8192 → M) :
    (∑ s : Fin 4, ∑ kk : Fin 2048, f (col s kk)) = ∑ k : Fin 8192, f k := by
  rw [← Fintype.sum_prod_type' (f := fun (s : Fin 4) (kk : Fin 2048) => f (col s kk))]
  refine Fintype.sum_equiv (finProdFinEquiv : Fin 4 × Fin 2048 ≃ Fin 8192) _ _ (fun x => ?_)
  congr 1
  apply Fin.ext
  show 2048 * x.1.val + x.2.val = x.2.val + 2048 * x.1.val
  omega

/-- The same with the steps counted by a range of naturals, as a fold over consecutive grid points states it: zero plus the
    partial sums of steps 0 … 3 is the whole sum. `g s` is step `s`'s partial sum for `s < 4` (its values past 3 are not used). -/
theorem zero_add_sum_range_steps (f : Fin 8192 → EReal) (g : ℕ → EReal)
    (hg : ∀ s : Fin 4, g s.val = ∑ kk : Fin 2048, f (col s kk)) :
    (0 : EReal) + ∑ s ∈ Finset.range 4, g s = ∑ k : Fin 8192, f k := by
  rw [zero_add, Finset.sum_range, ← sum_steps f]
  exact Finset.sum_congr rfl fun s _ => hg s

end Cert.DenseGcn

end
-- ==== Proof.Value.Final0.lean ====
/-
  Pallas_call 0's output array after the run, at the extended reals: entry (R, q) is one layer of the specification applied to
  the arrays the region found. Row block R / 512 is written back once, at the last of its four contraction steps, where the
  accumulator holds zero plus the four steps' partial products: the whole contraction (`DenseGcn.sum_steps`).
-/
import proofs.«143792_g77017353552368_cont_sun_m_946_2_alg».proof.Proof.KI.Region0
import proofs.«143792_g77017353552368_cont_sun_m_946_2_alg».proof.Proof.Value.Payloads
import proofs.«143792_g77017353552368_cont_sun_m_946_2_alg».proof.Proof.LibDenseGcn
import Idealize.ShloMosaic.Lib.ValueIdx
import Idealize.ShloMosaic.Lib.Pipeline.Value

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The windows' block indices, in closed form

Grid point t is contraction step t % 4 of row block t / 4. The adjacency's block index there is (t / 4, t % 4), the
features' (t % 4, 0), the weight's and the bias row's (0, 0), the output's (t / 4, 0): decided once over the 64 points. -/

theorem idx0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0)

/-! ## The blocks, read off the arrays

A block's entry sits in its array, on each axis, at the block index times the block's size plus the entry's own coordinate. -/

/-- Entry (r, kk) of the adjacency block at point t is entry (512·(t/4) + r, 2048·(t%4) + kk) of the adjacency. -/
theorem ablk0_apply (c : Dev nD) (t : Fin cfg0.N) (r : Fin 512) (kk : Fin 2048)
    (i : Fin 8192) (k : Fin 8192) (hi : i.val = 512 * (t.val / 4) + r.val) (hk : k.val = 2048 * (t.val % 4) + kk.val) :
    ablk0 (F := Ideal) V c t (ix2 r kk) = V c main_arg0 (ix2 i k) := by
  show V c main_arg0 (((cfg0.win 0).blk t).view.emb (ix2 r kk)) = V c main_arg0 (ix2 i k)
  obtain ⟨h00, h01, -⟩ := idx0 t
  congr 1
  funext a
  apply Fin.ext
  match a with
  | ⟨0, _⟩ =>
    show win0_0.index t (0 : Fin 2) * 512 + 1 * r.val = i.val
    rw [h00, hi]; omega
  | ⟨1, _⟩ =>
    show win0_0.index t (1 : Fin 2) * 2048 + 1 * kk.val = k.val
    rw [h01, hk]; omega

/-- Entry (kk, j) of the feature block at point t is entry (2048·(t%4) + kk, j) of the features. -/
theorem xblk0_apply (c : Dev nD) (t : Fin cfg0.N) (kk : Fin 2048) (j : Fin 128)
    (k : Fin 8192) (hk : k.val = 2048 * (t.val % 4) + kk.val) :
    xblk0 (F := Ideal) V c t (ix2 kk j) = V c main_arg1 (ix2 k j) := by
  show V c main_arg1 (((cfg0.win 1).blk t).view.emb (ix2 kk j)) = V c main_arg1 (ix2 k j)
  obtain ⟨-, -, h10, h11, -⟩ := idx0 t
  congr 1
  funext a
  apply Fin.ext
  match a with
  | ⟨0, _⟩ =>
    show win0_1.index t (0 : Fin 2) * 2048 + 1 * kk.val = k.val
    rw [h10, hk]; omega
  | ⟨1, _⟩ =>
    show win0_1.index t (1 : Fin 2) * 128 + 1 * j.val = j.val
    rw [h11]; omega

/-- The weight block is the whole transposed weight at every point. -/
theorem wblk0_apply (c : Dev nD) (t : Fin cfg0.N) (j : Fin 128) (q : Fin 128) :
    wblk0 (F := Ideal) V c t (ix2 j q) = V c main_v0 (ix2 j q) := by
  show V c main_v0 (((cfg0.win 2).blk t).view.emb (ix2 j q)) = V c main_v0 (ix2 j q)
  obtain ⟨-, -, -, -, h20, h21, -⟩ := idx0 t
  congr 1
  funext a
  apply Fin.ext
  match a with
  | ⟨0, _⟩ =>
    show win0_2.index t (0 : Fin 2) * 128 + 1 * j.val = j.val
    rw [h20]; omega
  | ⟨1, _⟩ =>
    show win0_2.index t (1 : Fin 2) * 128 + 1 * q.val = q.val
    rw [h21]; omega

/-- The bias block is the whole bias row at every point. -/
theorem bblk0_apply (c : Dev nD) (t : Fin cfg0.N) (z : Fin 1) (q : Fin 128) :
    bblk0 (F := Ideal) V c t (ix2 z q) = V c main_v1 (ix2 z q) := by
  show V c main_v1 (((cfg0.win 3).blk t).view.emb (ix2 z q)) = V c main_v1 (ix2 z q)
  obtain ⟨-, -, -, -, -, -, h30, h31, -⟩ := idx0 t
  congr 1
  funext a
  apply Fin.ext
  match a with
  | ⟨0, _⟩ =>
    show win0_3.index t (0 : Fin 2) * 1 + 1 * z.val = z.val
    rw [h30]; omega
  | ⟨1, _⟩ =>
    show win0_3.index t (1 : Fin 2) * 128 + 1 * q.val = q.val
    rw [h31]; omega

/-! ## The accumulator over a row block's four steps -/

/-- Step n's partial product at entry i of the accumulator: row i₀ of the adjacency block against column i₁ of the feature
    block (zero past the grid, where it is never used). -/
def stepSum0 (c : Dev nD) (n : ℕ) (i : S512x128.Idx) : EReal :=
  if h : n < cfg0.N then
    ∑ kk : Fin 2048, ablk0 (F := Ideal) V c ⟨n, h⟩ (ix2 (i 0) kk) * xblk0 (F := Ideal) V c ⟨n, h⟩ (ix2 kk (i 1))
  else 0

theorem stepSum0_ix2 (c : Dev nD) (n : ℕ) (h : n < cfg0.N) (r : Fin 512) (q : Fin 128) :
    stepSum0 V c n (ix2 r q)
      = ∑ kk : Fin 2048, ablk0 (F := Ideal) V c ⟨n, h⟩ (ix2 r kk) * xblk0 (F := Ideal) V c ⟨n, h⟩ (ix2 kk q) := by
  unfold stepSum0
  rw [dif_pos h]

/-- The accumulator after the last step of a row block: zero plus the four steps' partial products. -/
theorem accAt0_last (c : Dev nD) (t : Fin cfg0.N) (h3 : t.val % 4 = 3) (i : S512x128.Idx) :
    accAt0 (F := Ideal) V c t.val t.isLt i = 0 + ∑ s ∈ Finset.range 4, stepSum0 V c (4 * (t.val / 4) + s) i := by
  have hb : 4 * (t.val / 4) + t.val % 4 < cfg0.N := by rw [Nat.div_add_mod]; exact t.isLt
  have hfold := Pipeline.eq_accAt_of_mod (N := cfg0.N) (fun n h => accAt0 (F := Ideal) V c n h) 4
    (fun n h => k0_pay2 (F := Ideal) (ablk0 V c ⟨n, h⟩) (xblk0 V c ⟨n, h⟩) (k0_pay1 (F := Ideal)))
    (fun n h acc => k0_pay2 (F := Ideal) (ablk0 V c ⟨n, h⟩) (xblk0 V c ⟨n, h⟩) acc)
    (fun n h hm => accAt0_first V c ⟨n, h⟩ hm)
    (fun n h hm => accAt0_step V c ⟨n + 1, h⟩ hm)
    (by decide) t.val t.isLt hb
  have hadd := Pipeline.accAt_add_apply (N := cfg0.N) (ι := S512x128.Idx) (β := EReal)
    (fun n h => k0_pay2 (F := Ideal) (ablk0 V c ⟨n, h⟩) (xblk0 V c ⟨n, h⟩) (k0_pay1 (F := Ideal)))
    (fun n h acc => k0_pay2 (F := Ideal) (ablk0 V c ⟨n, h⟩) (xblk0 V c ⟨n, h⟩) acc)
    (fun _ => 0) (stepSum0 V c) (4 * (t.val / 4)) 3
    (fun h y => by
      obtain ⟨r, q, rfl⟩ : ∃ r q, y = ix2 r q := ⟨y 0, y 1, eq_ix2 y⟩
      rw [pay2_apply0, pay1_apply0, stepSum0_ix2 V c _ h])
    (fun n h acc y _ _ => by
      obtain ⟨r, q, rfl⟩ : ∃ r q, y = ix2 r q := ⟨y 0, y 1, eq_ix2 y⟩
      rw [pay2_apply0, stepSum0_ix2 V c _ h])
    (t.val % 4) (by omega) hb i
  rw [hfold, hadd, h3]

/-- At the last step of a row block, entry (r, j) of the accumulator is the aggregated feature of row 512·(t/4) + r: the
    four steps' columns are all the columns. -/
theorem accAt0_agg (c : Dev nD) (t : Fin cfg0.N) (h3 : t.val % 4 = 3) (r : Fin 512) (j : Fin 128)
    (R : Fin 8192) (hR : R.val = 512 * (t.val / 4) + r.val) :
    accAt0 (F := Ideal) V c t.val t.isLt (ix2 r j)
      = Cert.DenseGcn.agg (fun R k => V c main_arg0 (ix2 R k)) (fun k j => V c main_arg1 (ix2 k j)) R j := by
  have hN : cfg0.N = 64 := N_0
  have ht : t.val < 64 := lt_of_lt_of_eq t.isLt hN
  rw [accAt0_last V c t h3]
  unfold Cert.DenseGcn.agg
  refine Cert.DenseGcn.zero_add_sum_range_steps _
    (fun s => stepSum0 V c (4 * (t.val / 4) + s) (ix2 r j)) (fun s => ?_)
  have hs4 : s.val < 4 := s.isLt
  have hs : 4 * (t.val / 4) + s.val < cfg0.N := lt_of_lt_of_eq (by omega : 4 * (t.val / 4) + s.val < 64) hN.symm
  show stepSum0 V c (4 * (t.val / 4) + s.val) (ix2 r j) = _
  rw [stepSum0_ix2 V c _ hs]
  refine Finset.sum_congr rfl fun kk _ => ?_
  have hcol : (Cert.DenseGcn.col s kk).val = 2048 * s.val + kk.val := rfl
  rw [ablk0_apply V c ⟨_, hs⟩ r kk R (Cert.DenseGcn.col s kk) (by show R.val = 512 * ((4 * (t.val / 4) + s.val) / 4) + r.val; omega)
      (by show (Cert.DenseGcn.col s kk).val = 2048 * ((4 * (t.val / 4) + s.val) % 4) + kk.val; omega),
    xblk0_apply V c ⟨_, hs⟩ kk j (Cert.DenseGcn.col s kk)
      (by show (Cert.DenseGcn.col s kk).val = 2048 * ((4 * (t.val / 4) + s.val) % 4) + kk.val; omega)]

/-- What the last step of a row block leaves in the output block: the layer at rows 512·(t/4) + r. -/
theorem outAt0_apply (c : Dev nD) (t : Fin cfg0.N) (h3 : t.val % 4 = 3) (r : Fin 512) (q : Fin 128)
    (R : Fin 8192) (hR : R.val = 512 * (t.val / 4) + r.val) :
    outAt0 (F := Ideal) V c t (ix2 r q)
      = Cert.DenseGcn.layer Cert.DenseGcn.clip (fun R k => V c main_arg0 (ix2 R k)) (fun k j => V c main_arg1 (ix2 k j))
          (fun q j => V c main_v0 (ix2 j q)) (fun q => V c main_v1 (ix2 0 q)) R q := by
  unfold outAt0
  rw [pay3_apply0]
  simp only [accAt0_agg V c t h3 r _ R hR, wblk0_apply, bblk0_apply]
  rfl

/-! ## The output array after the run -/

/-- The layer's output as contents of the output array. -/
def G0 (c : Dev nD) : Buf (Elt Ideal) ((c : Thread nD τ).loc main_v2) := fun i =>
  Cert.DenseGcn.layer Cert.DenseGcn.clip (fun R k => V c main_arg0 (ix2 R k)) (fun k j => V c main_arg1 (ix2 k j))
    (fun q j => V c main_v0 (ix2 j q)) (fun q => V c main_v1 (ix2 0 q)) (i 0) (i 1)

/-- What a flushing point writes back is its block of the layer's output: entry (r, q) of the output block at point t sits
    at row 512·(t/4) + r, column q of the output array. -/
theorem flushed0_eq (c : Dev nD) (t : Fin cfg0.N) (hf : (cfg0.win 4).flush t = true) :
    (dat0 (F := Ideal) V c).flushed 4 t = ((cfg0.win 4).blk t).view.read (Elt Ideal) (G0 V c) := by
  have h3 : t.val % 4 = 3 := (flush0_4 t).mp hf
  funext y
  obtain ⟨r, q, rfl⟩ : ∃ (r : Fin 512) (q : Fin 128), y = ix2 r q := ⟨y 0, y 1, eq_ix2 (n0 := 512) (n1 := 128) y⟩
  show outAt0 V c t (ix2 r q) = G0 V c (((cfg0.win 4).blk t).view.emb (ix2 r q))
  obtain ⟨-, -, -, -, -, -, -, -, h40, h41⟩ := idx0 t
  have e0 : ((((cfg0.win 4).blk t).view.emb (ix2 r q)) 0 : Fin 8192).val = 512 * (t.val / 4) + r.val := by
    show win0_4.index t (0 : Fin 2) * 512 + 1 * r.val = _
    rw [h40]; omega
  have e1 : ((((cfg0.win 4).blk t).view.emb (ix2 r q)) 1 : Fin 128) = q := Fin.ext (by
    show win0_4.index t (1 : Fin 2) * 128 + 1 * q.val = q.val
    rw [h41]; omega)
  rw [outAt0_apply V c t h3 r q _ e0]
  unfold G0
  rw [e1]

/-- Row R of the output array lies in the block written back at the last step of row block R / 512. -/
theorem cover0 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 64 := N_0
  have h0 : (i 0 : ℕ) < 8192 := (i 0).isLt
  have h1 : (i 1 : ℕ) < 128 := (i 1).isLt
  have ht : 4 * ((i 0 : ℕ) / 512) + 3 < cfg0.N := lt_of_lt_of_eq (by omega : 4 * ((i 0 : ℕ) / 512) + 3 < 64) hN.symm
  refine ⟨⟨4 * ((i 0 : ℕ) / 512) + 3, ht⟩, (flush0_4 _).mpr (by show (4 * ((i 0 : ℕ) / 512) + 3) % 4 = 3; omega), ?_⟩
  obtain ⟨-, -, -, -, -, -, -, -, h40, h41⟩ := idx0 ⟨4 * ((i 0 : ℕ) / 512) + 3, ht⟩
  show i ∈ ((View.whole main_v2).slice (win0_4.rect ⟨4 * ((i 0 : ℕ) / 512) + 3, ht⟩)).set
  rw [View.set_slice_whole, Rect.mem_set_unit]
  intro a
  match a with
  | ⟨0, _⟩ =>
    show win0_4.index ⟨4 * ((i 0 : ℕ) / 512) + 3, ht⟩ (0 : Fin 2) * 512 ≤ (i 0 : ℕ)
      ∧ (i 0 : ℕ) < win0_4.index ⟨4 * ((i 0 : ℕ) / 512) + 3, ht⟩ (0 : Fin 2) * 512 + 512
    rw [h40]
    show (4 * ((i 0 : ℕ) / 512) + 3) / 4 * 512 ≤ (i 0 : ℕ) ∧ (i 0 : ℕ) < (4 * ((i 0 : ℕ) / 512) + 3) / 4 * 512 + 512
    omega
  | ⟨1, _⟩ =>
    show win0_4.index ⟨4 * ((i 0 : ℕ) / 512) + 3, ht⟩ (1 : Fin 2) * 128 ≤ (i 1 : ℕ)
      ∧ (i 1 : ℕ) < win0_4.index ⟨4 * ((i 0 : ℕ) / 512) + 3, ht⟩ (1 : Fin 2) * 128 + 128
    rw [h41]
    omega

/-- Entry (R, q) of the output array after the run is the layer at (R, q). -/
theorem final0 (c : Dev nD) (R : Fin 8192) (q : Fin 128) :
    (dat0 (F := Ideal) V c).arrAt 4 cfg0.N (ix2 R q)
      = Cert.DenseGcn.layer Cert.DenseGcn.clip (fun R k => V c main_arg0 (ix2 R k)) (fun k j => V c main_arg1 (ix2 k j))
          (fun q j => V c main_v0 (ix2 j q)) (fun q => V c main_v1 (ix2 0 q)) R q := by
  rw [(dat0 (F := Ideal) V c).arrAt_eq_of_cover 4 (G0 V c) (flushed0_eq V c) (cover0 c)]
  rfl

end Cert.KernelIdeal.Layers

end
-- ==== Proof.Value.Final1.lean ====
/-
  Pallas_call 1's output array after the run, at the extended reals: entry (R, q) is one layer of the specification applied to
  the arrays the region found. Row block R / 512 is written back once, at the last of its four contraction steps, where the
  accumulator holds zero plus the four steps' partial products: the whole contraction (`DenseGcn.sum_steps`).
-/
import proofs.«143792_g77017353552368_cont_sun_m_946_2_alg».proof.Proof.KI.Region1
import proofs.«143792_g77017353552368_cont_sun_m_946_2_alg».proof.Proof.Value.Payloads
import proofs.«143792_g77017353552368_cont_sun_m_946_2_alg».proof.Proof.LibDenseGcn
import Idealize.ShloMosaic.Lib.ValueIdx
import Idealize.ShloMosaic.Lib.Pipeline.Value

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The windows' block indices, in closed form

Grid point t is contraction step t % 4 of row block t / 4. The adjacency's block index there is (t / 4, t % 4), the
features' (t % 4, 0), the weight's and the bias row's (0, 0), the output's (t / 4, 0): decided once over the 64 points. -/

theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0)

/-! ## The blocks, read off the arrays

A block's entry sits in its array, on each axis, at the block index times the block's size plus the entry's own coordinate. -/

/-- Entry (r, kk) of the adjacency block at point t is entry (512·(t/4) + r, 2048·(t%4) + kk) of the adjacency. -/
theorem ablk1_apply (c : Dev nD) (t : Fin cfg1.N) (r : Fin 512) (kk : Fin 2048)
    (i : Fin 8192) (k : Fin 8192) (hi : i.val = 512 * (t.val / 4) + r.val) (hk : k.val = 2048 * (t.val % 4) + kk.val) :
    ablk1 (F := Ideal) V c t (ix2 r kk) = V c main_arg0 (ix2 i k) := by
  show V c main_arg0 (((cfg1.win 0).blk t).view.emb (ix2 r kk)) = V c main_arg0 (ix2 i k)
  obtain ⟨h00, h01, -⟩ := idx1 t
  congr 1
  funext a
  apply Fin.ext
  match a with
  | ⟨0, _⟩ =>
    show win1_0.index t (0 : Fin 2) * 512 + 1 * r.val = i.val
    rw [h00, hi]; omega
  | ⟨1, _⟩ =>
    show win1_0.index t (1 : Fin 2) * 2048 + 1 * kk.val = k.val
    rw [h01, hk]; omega

/-- Entry (kk, j) of the feature block at point t is entry (2048·(t%4) + kk, j) of the features. -/
theorem xblk1_apply (c : Dev nD) (t : Fin cfg1.N) (kk : Fin 2048) (j : Fin 128)
    (k : Fin 8192) (hk : k.val = 2048 * (t.val % 4) + kk.val) :
    xblk1 (F := Ideal) V c t (ix2 kk j) = V c main_v2 (ix2 k j) := by
  show V c main_v2 (((cfg1.win 1).blk t).view.emb (ix2 kk j)) = V c main_v2 (ix2 k j)
  obtain ⟨-, -, h10, h11, -⟩ := idx1 t
  congr 1
  funext a
  apply Fin.ext
  match a with
  | ⟨0, _⟩ =>
    show win1_1.index t (0 : Fin 2) * 2048 + 1 * kk.val = k.val
    rw [h10, hk]; omega
  | ⟨1, _⟩ =>
    show win1_1.index t (1 : Fin 2) * 128 + 1 * j.val = j.val
    rw [h11]; omega

/-- The weight block is the whole transposed weight at every point. -/
theorem wblk1_apply (c : Dev nD) (t : Fin cfg1.N) (j : Fin 128) (q : Fin 128) :
    wblk1 (F := Ideal) V c t (ix2 j q) = V c main_v3 (ix2 j q) := by
  show V c main_v3 (((cfg1.win 2).blk t).view.emb (ix2 j q)) = V c main_v3 (ix2 j q)
  obtain ⟨-, -, -, -, h20, h21, -⟩ := idx1 t
  congr 1
  funext a
  apply Fin.ext
  match a with
  | ⟨0, _⟩ =>
    show win1_2.index t (0 : Fin 2) * 128 + 1 * j.val = j.val
    rw [h20]; omega
  | ⟨1, _⟩ =>
    show win1_2.index t (1 : Fin 2) * 128 + 1 * q.val = q.val
    rw [h21]; omega

/-- The bias block is the whole bias row at every point. -/
theorem bblk1_apply (c : Dev nD) (t : Fin cfg1.N) (z : Fin 1) (q : Fin 128) :
    bblk1 (F := Ideal) V c t (ix2 z q) = V c main_v4 (ix2 z q) := by
  show V c main_v4 (((cfg1.win 3).blk t).view.emb (ix2 z q)) = V c main_v4 (ix2 z q)
  obtain ⟨-, -, -, -, -, -, h30, h31, -⟩ := idx1 t
  congr 1
  funext a
  apply Fin.ext
  match a with
  | ⟨0, _⟩ =>
    show win1_3.index t (0 : Fin 2) * 1 + 1 * z.val = z.val
    rw [h30]; omega
  | ⟨1, _⟩ =>
    show win1_3.index t (1 : Fin 2) * 128 + 1 * q.val = q.val
    rw [h31]; omega

/-! ## The accumulator over a row block's four steps -/

/-- Step n's partial product at entry i of the accumulator: row i₀ of the adjacency block against column i₁ of the feature
    block (zero past the grid, where it is never used). -/
def stepSum1 (c : Dev nD) (n : ℕ) (i : S512x128.Idx) : EReal :=
  if h : n < cfg1.N then
    ∑ kk : Fin 2048, ablk1 (F := Ideal) V c ⟨n, h⟩ (ix2 (i 0) kk) * xblk1 (F := Ideal) V c ⟨n, h⟩ (ix2 kk (i 1))
  else 0

theorem stepSum1_ix2 (c : Dev nD) (n : ℕ) (h : n < cfg1.N) (r : Fin 512) (q : Fin 128) :
    stepSum1 V c n (ix2 r q)
      = ∑ kk : Fin 2048, ablk1 (F := Ideal) V c ⟨n, h⟩ (ix2 r kk) * xblk1 (F := Ideal) V c ⟨n, h⟩ (ix2 kk q) := by
  unfold stepSum1
  rw [dif_pos h]

/-- The accumulator after the last step of a row block: zero plus the four steps' partial products. -/
theorem accAt1_last (c : Dev nD) (t : Fin cfg1.N) (h3 : t.val % 4 = 3) (i : S512x128.Idx) :
    accAt1 (F := Ideal) V c t.val t.isLt i = 0 + ∑ s ∈ Finset.range 4, stepSum1 V c (4 * (t.val / 4) + s) i := by
  have hb : 4 * (t.val / 4) + t.val % 4 < cfg1.N := by rw [Nat.div_add_mod]; exact t.isLt
  have hfold := Pipeline.eq_accAt_of_mod (N := cfg1.N) (fun n h => accAt1 (F := Ideal) V c n h) 4
    (fun n h => k1_pay2 (F := Ideal) (ablk1 V c ⟨n, h⟩) (xblk1 V c ⟨n, h⟩) (k1_pay1 (F := Ideal)))
    (fun n h acc => k1_pay2 (F := Ideal) (ablk1 V c ⟨n, h⟩) (xblk1 V c ⟨n, h⟩) acc)
    (fun n h hm => accAt1_first V c ⟨n, h⟩ hm)
    (fun n h hm => accAt1_step V c ⟨n + 1, h⟩ hm)
    (by decide) t.val t.isLt hb
  have hadd := Pipeline.accAt_add_apply (N := cfg1.N) (ι := S512x128.Idx) (β := EReal)
    (fun n h => k1_pay2 (F := Ideal) (ablk1 V c ⟨n, h⟩) (xblk1 V c ⟨n, h⟩) (k1_pay1 (F := Ideal)))
    (fun n h acc => k1_pay2 (F := Ideal) (ablk1 V c ⟨n, h⟩) (xblk1 V c ⟨n, h⟩) acc)
    (fun _ => 0) (stepSum1 V c) (4 * (t.val / 4)) 3
    (fun h y => by
      obtain ⟨r, q, rfl⟩ : ∃ r q, y = ix2 r q := ⟨y 0, y 1, eq_ix2 y⟩
      rw [pay2_apply1, pay1_apply1, stepSum1_ix2 V c _ h])
    (fun n h acc y _ _ => by
      obtain ⟨r, q, rfl⟩ : ∃ r q, y = ix2 r q := ⟨y 0, y 1, eq_ix2 y⟩
      rw [pay2_apply1, stepSum1_ix2 V c _ h])
    (t.val % 4) (by omega) hb i
  rw [hfold, hadd, h3]

/-- At the last step of a row block, entry (r, j) of the accumulator is the aggregated feature of row 512·(t/4) + r: the
    four steps' columns are all the columns. -/
theorem accAt1_agg (c : Dev nD) (t : Fin cfg1.N) (h3 : t.val % 4 = 3) (r : Fin 512) (j : Fin 128)
    (R : Fin 8192) (hR : R.val = 512 * (t.val / 4) + r.val) :
    accAt1 (F := Ideal) V c t.val t.isLt (ix2 r j)
      = Cert.DenseGcn.agg (fun R k => V c main_arg0 (ix2 R k)) (fun k j => V c main_v2 (ix2 k j)) R j := by
  have hN : cfg1.N = 64 := N_1
  have ht : t.val < 64 := lt_of_lt_of_eq t.isLt hN
  rw [accAt1_last V c t h3]
  unfold Cert.DenseGcn.agg
  refine Cert.DenseGcn.zero_add_sum_range_steps _
    (fun s => stepSum1 V c (4 * (t.val / 4) + s) (ix2 r j)) (fun s => ?_)
  have hs4 : s.val < 4 := s.isLt
  have hs : 4 * (t.val / 4) + s.val < cfg1.N := lt_of_lt_of_eq (by omega : 4 * (t.val / 4) + s.val < 64) hN.symm
  show stepSum1 V c (4 * (t.val / 4) + s.val) (ix2 r j) = _
  rw [stepSum1_ix2 V c _ hs]
  refine Finset.sum_congr rfl fun kk _ => ?_
  have hcol : (Cert.DenseGcn.col s kk).val = 2048 * s.val + kk.val := rfl
  rw [ablk1_apply V c ⟨_, hs⟩ r kk R (Cert.DenseGcn.col s kk) (by show R.val = 512 * ((4 * (t.val / 4) + s.val) / 4) + r.val; omega)
      (by show (Cert.DenseGcn.col s kk).val = 2048 * ((4 * (t.val / 4) + s.val) % 4) + kk.val; omega),
    xblk1_apply V c ⟨_, hs⟩ kk j (Cert.DenseGcn.col s kk)
      (by show (Cert.DenseGcn.col s kk).val = 2048 * ((4 * (t.val / 4) + s.val) % 4) + kk.val; omega)]

/-- What the last step of a row block leaves in the output block: the layer at rows 512·(t/4) + r. -/
theorem outAt1_apply (c : Dev nD) (t : Fin cfg1.N) (h3 : t.val % 4 = 3) (r : Fin 512) (q : Fin 128)
    (R : Fin 8192) (hR : R.val = 512 * (t.val / 4) + r.val) :
    outAt1 (F := Ideal) V c t (ix2 r q)
      = Cert.DenseGcn.layer id (fun R k => V c main_arg0 (ix2 R k)) (fun k j => V c main_v2 (ix2 k j))
          (fun q j => V c main_v3 (ix2 j q)) (fun q => V c main_v4 (ix2 0 q)) R q := by
  unfold outAt1
  rw [pay3_apply1]
  simp only [accAt1_agg V c t h3 r _ R hR, wblk1_apply, bblk1_apply]
  rfl

/-! ## The output array after the run -/

/-- The layer's output as contents of the output array. -/
def G1 (c : Dev nD) : Buf (Elt Ideal) ((c : Thread nD τ).loc main_v5) := fun i =>
  Cert.DenseGcn.layer id (fun R k => V c main_arg0 (ix2 R k)) (fun k j => V c main_v2 (ix2 k j))
    (fun q j => V c main_v3 (ix2 j q)) (fun q => V c main_v4 (ix2 0 q)) (i 0) (i 1)

/-- What a flushing point writes back is its block of the layer's output: entry (r, q) of the output block at point t sits
    at row 512·(t/4) + r, column q of the output array. -/
theorem flushed1_eq (c : Dev nD) (t : Fin cfg1.N) (hf : (cfg1.win 4).flush t = true) :
    (dat1 (F := Ideal) V c).flushed 4 t = ((cfg1.win 4).blk t).view.read (Elt Ideal) (G1 V c) := by
  have h3 : t.val % 4 = 3 := (flush1_4 t).mp hf
  funext y
  obtain ⟨r, q, rfl⟩ : ∃ (r : Fin 512) (q : Fin 128), y = ix2 r q := ⟨y 0, y 1, eq_ix2 (n0 := 512) (n1 := 128) y⟩
  show outAt1 V c t (ix2 r q) = G1 V c (((cfg1.win 4).blk t).view.emb (ix2 r q))
  obtain ⟨-, -, -, -, -, -, -, -, h40, h41⟩ := idx1 t
  have e0 : ((((cfg1.win 4).blk t).view.emb (ix2 r q)) 0 : Fin 8192).val = 512 * (t.val / 4) + r.val := by
    show win1_4.index t (0 : Fin 2) * 512 + 1 * r.val = _
    rw [h40]; omega
  have e1 : ((((cfg1.win 4).blk t).view.emb (ix2 r q)) 1 : Fin 128) = q := Fin.ext (by
    show win1_4.index t (1 : Fin 2) * 128 + 1 * q.val = q.val
    rw [h41]; omega)
  rw [outAt1_apply V c t h3 r q _ e0]
  unfold G1
  rw [e1]

/-- Row R of the output array lies in the block written back at the last step of row block R / 512. -/
theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have hN : cfg1.N = 64 := N_1
  have h0 : (i 0 : ℕ) < 8192 := (i 0).isLt
  have h1 : (i 1 : ℕ) < 128 := (i 1).isLt
  have ht : 4 * ((i 0 : ℕ) / 512) + 3 < cfg1.N := lt_of_lt_of_eq (by omega : 4 * ((i 0 : ℕ) / 512) + 3 < 64) hN.symm
  refine ⟨⟨4 * ((i 0 : ℕ) / 512) + 3, ht⟩, (flush1_4 _).mpr (by show (4 * ((i 0 : ℕ) / 512) + 3) % 4 = 3; omega), ?_⟩
  obtain ⟨-, -, -, -, -, -, -, -, h40, h41⟩ := idx1 ⟨4 * ((i 0 : ℕ) / 512) + 3, ht⟩
  show i ∈ ((View.whole main_v5).slice (win1_4.rect ⟨4 * ((i 0 : ℕ) / 512) + 3, ht⟩)).set
  rw [View.set_slice_whole, Rect.mem_set_unit]
  intro a
  match a with
  | ⟨0, _⟩ =>
    show win1_4.index ⟨4 * ((i 0 : ℕ) / 512) + 3, ht⟩ (0 : Fin 2) * 512 ≤ (i 0 : ℕ)
      ∧ (i 0 : ℕ) < win1_4.index ⟨4 * ((i 0 : ℕ) / 512) + 3, ht⟩ (0 : Fin 2) * 512 + 512
    rw [h40]
    show (4 * ((i 0 : ℕ) / 512) + 3) / 4 * 512 ≤ (i 0 : ℕ) ∧ (i 0 : ℕ) < (4 * ((i 0 : ℕ) / 512) + 3) / 4 * 512 + 512
    omega
  | ⟨1, _⟩ =>
    show win1_4.index ⟨4 * ((i 0 : ℕ) / 512) + 3, ht⟩ (1 : Fin 2) * 128 ≤ (i 1 : ℕ)
      ∧ (i 1 : ℕ) < win1_4.index ⟨4 * ((i 0 : ℕ) / 512) + 3, ht⟩ (1 : Fin 2) * 128 + 128
    rw [h41]
    omega

/-- Entry (R, q) of the output array after the run is the layer at (R, q). -/
theorem final1 (c : Dev nD) (R : Fin 8192) (q : Fin 128) :
    (dat1 (F := Ideal) V c).arrAt 4 cfg1.N (ix2 R q)
      = Cert.DenseGcn.layer id (fun R k => V c main_arg0 (ix2 R k)) (fun k j => V c main_v2 (ix2 k j))
          (fun q j => V c main_v3 (ix2 j q)) (fun q => V c main_v4 (ix2 0 q)) R q := by
  rw [(dat1 (F := Ideal) V c).arrAt_eq_of_cover 4 (G1 V c) (flushed1_eq V c) (cover1 c)]
  rfl

end Cert.KernelIdeal.Layers

end
-- ==== Proof.Value.Kernel.lean ====
/-
  The idealized kernel program's result, entry by entry, is the two layers of the specification applied to the launch
  memory's arrays. The second pallas_call's output is one layer of what it found: the adjacency as launched, the first
  pallas_call's output as features, and the second weight transposed and second bias reshaped by the host stretch before
  it. The first pallas_call's output is one clipped layer of the adjacency and the features as launched, the first weight
  transposed and the first bias reshaped. A transposed weight read at (j, q) is the weight at (q, j); a bias reshaped to a
  row read at (0, q) is the bias at q.
-/
import proofs.«143792_g77017353552368_cont_sun_m_946_2_alg».proof.Proof.KI.Run
import proofs.«143792_g77017353552368_cont_sun_m_946_2_alg».proof.Proof.Value.Final0
import proofs.«143792_g77017353552368_cont_sun_m_946_2_alg».proof.Proof.Value.Final1
import proofs.«143792_g77017353552368_cont_sun_m_946_2_alg».proof.Proof.LibDenseGcn
import Idealize.ShloMosaic.Lib.ValueIdx
import Idealize.ShloMosaic.Lib.Pipeline.Value
import Idealize.ShloMosaic.Lib.StableHlo.Run

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.StableHlo

variable (m : (ℓ : Loc nD τ sig) → Buf (Elt Ideal) ℓ) (ρ : Dev nD → PrngReg)

/-! ## What the first pallas_call finds -/

theorem V1_arg0 (c : Dev nD) : V1 m ρ c main_arg0 = m ((c : Thread nD τ).loc main_arg0) :=
  (W1_of m ρ c main_arg0 (by decide) (by decide)).trans rfl
theorem V1_arg1 (c : Dev nD) : V1 m ρ c main_arg1 = m ((c : Thread nD τ).loc main_arg1) :=
  (W1_of m ρ c main_arg1 (by decide) (by decide)).trans rfl
/-- The first weight, transposed. -/
theorem V1_v0 (c : Dev nD) :
    (V1 m ρ c main_v0 : S128x128.Idx → EReal) = transpose S128x128 [1, 0] (m ((c : Thread nD τ).loc main_arg2)) transposes_S128x128_S128x128_1_0 := by
  show StableHlo.after hostOps0 (W0 m ρ c) (Proc.devRef .tc main_v0) = _
  after_results <;> rfl
/-- The first bias, as a row. -/
theorem V1_v1 (c : Dev nD) :
    (V1 m ρ c main_v1 : S1x128.Idx → EReal) = shapeCast S1x128 (m ((c : Thread nD τ).loc main_arg3)) shapeCasts_S128_S1x128 := by
  show StableHlo.after hostOps0 (W0 m ρ c) (Proc.devRef .tc main_v1) = _
  after_results <;> rfl

/-! ## What the second pallas_call finds -/

theorem V3_arg0 (c : Dev nD) : V3 m ρ c main_arg0 = m ((c : Thread nD τ).loc main_arg0) :=
  (W3_of m ρ c main_arg0 (by decide) (by decide)).trans
    (((W2_arr m ρ c 0).trans (((dat0 (V1 m ρ) c).arrAt_in 0 rfl _).trans (A_eq0 (V1 m ρ) c 0))).trans (V1_arg0 m ρ c))
/-- The first pallas_call's output array. -/
theorem V3_v2 (c : Dev nD) : V3 m ρ c main_v2 = (dat0 (V1 m ρ) c).arrAt 4 cfg0.N :=
  (W3_of m ρ c main_v2 (by decide) (by decide)).trans (W2_arr m ρ c 4)
theorem W2_arg4 (c : Dev nD) : W2 m ρ c (Proc.devRef .tc main_arg4) = m ((c : Thread nD τ).loc main_arg4) :=
  (W2_of_ne m ρ c main_arg4 (by decide)).trans ((W1_of m ρ c main_arg4 (by decide) (by decide)).trans rfl)
theorem W2_arg5 (c : Dev nD) : W2 m ρ c (Proc.devRef .tc main_arg5) = m ((c : Thread nD τ).loc main_arg5) :=
  (W2_of_ne m ρ c main_arg5 (by decide)).trans ((W1_of m ρ c main_arg5 (by decide) (by decide)).trans rfl)
/-- The second weight, transposed. -/
theorem V3_v3 (c : Dev nD) :
    (V3 m ρ c main_v3 : S128x128.Idx → EReal) = transpose S128x128 [1, 0] (m ((c : Thread nD τ).loc main_arg4)) transposes_S128x128_S128x128_1_0 := by
  rw [← W2_arg4 m ρ c]
  show StableHlo.after hostOps1 (W2 m ρ c) (Proc.devRef .tc main_v3) = _
  after_results <;> rfl
/-- The second bias, as a row. -/
theorem V3_v4 (c : Dev nD) :
    (V3 m ρ c main_v4 : S1x128.Idx → EReal) = shapeCast S1x128 (m ((c : Thread nD τ).loc main_arg5)) shapeCasts_S128_S1x128 := by
  rw [← W2_arg5 m ρ c]
  show StableHlo.after hostOps1 (W2 m ρ c) (Proc.devRef .tc main_v4) = _
  after_results <;> rfl

/-! ## A transposed weight and a reshaped bias at an entry -/

theorem transposed_apply (w : S128x128.Idx → EReal) (j q : Fin 128) :
    transpose S128x128 [1, 0] w transposes_S128x128_S128x128_1_0 (ix2 j q) = w (ix2 q j) :=
  transpose_apply [1, 0] w transposes_S128x128_S128x128_1_0 (ix2 j q) (ix2 q j) (fun b => match b with
    | ⟨0, _⟩ => rfl
    | ⟨1, _⟩ => rfl)

theorem row_apply (b : S128.Idx → EReal) (q : Fin 128) :
    shapeCast S1x128 b shapeCasts_S128_S1x128 (ix2 (0 : Fin 1) q) = b (ix1 q) := by
  refine shapeCast_apply b shapeCasts_S128_S1x128 (ix2 (0 : Fin 1) q) (ix1 q) ?_
  rw [Shape.rowMajor_val_one, Shape.rowMajor_val_two]
  show q.val = (0 : Fin 1).val * 128 + q.val
  simp

/-! ## The result -/

/-- Entry (R, q) of the program's result array, at the last boundary, is the two layers of the launch memory's arrays. -/
theorem kernel_value (c : Dev nD) (R : Fin 8192) (q : Fin 128) :
    (W4 m ρ c (Proc.devRef .tc main_v5) : S8192x128.Idx → EReal) (ix2 R q)
      = Cert.DenseGcn.twoLayers (fun R k => m ((c : Thread nD τ).loc main_arg0) (ix2 R k)) (fun k j => m ((c : Thread nD τ).loc main_arg1) (ix2 k j))
          (fun q j => m ((c : Thread nD τ).loc main_arg2) (ix2 q j)) (fun q => m ((c : Thread nD τ).loc main_arg3) (ix1 q))
          (fun q j => m ((c : Thread nD τ).loc main_arg4) (ix2 q j)) (fun q => m ((c : Thread nD τ).loc main_arg5) (ix1 q)) R q := by
  have h4 : W4 m ρ c (Proc.devRef .tc main_v5) = (dat1 (V3 m ρ) c).arrAt 4 cfg1.N := W4_arr m ρ c 4
  rw [h4, final1 (V3 m ρ) c R q]
  unfold Cert.DenseGcn.twoLayers
  have hA : (fun (R : Fin 8192) (k : Fin 8192) => V3 m ρ c main_arg0 (ix2 R k)) = fun R k => m ((c : Thread nD τ).loc main_arg0) (ix2 R k) := by
    rw [V3_arg0]
  have hX : (fun (k : Fin 8192) (j : Fin 128) => V3 m ρ c main_v2 (ix2 k j))
      = Cert.DenseGcn.layer Cert.DenseGcn.clip (fun R k => m ((c : Thread nD τ).loc main_arg0) (ix2 R k)) (fun k j => m ((c : Thread nD τ).loc main_arg1) (ix2 k j))
          (fun q j => m ((c : Thread nD τ).loc main_arg2) (ix2 q j)) (fun q => m ((c : Thread nD τ).loc main_arg3) (ix1 q)) := by
    funext k j
    rw [V3_v2, final0 (V1 m ρ) c k j, V1_arg0, V1_arg1]
    have hW : (fun (q j : Fin 128) => V1 m ρ c main_v0 (ix2 j q)) = fun q j => m ((c : Thread nD τ).loc main_arg2) (ix2 q j) := by
      funext q j; rw [V1_v0, transposed_apply]
    have hb : (fun (q : Fin 128) => V1 m ρ c main_v1 (ix2 (0 : Fin 1) q)) = fun q => m ((c : Thread nD τ).loc main_arg3) (ix1 q) := by
      funext q; rw [V1_v1, row_apply]
    rw [hW, hb]
  have hW2 : (fun (q j : Fin 128) => V3 m ρ c main_v3 (ix2 j q)) = fun q j => m ((c : Thread nD τ).loc main_arg4) (ix2 q j) := by
    funext q j; rw [V3_v3, transposed_apply]
  have hb2 : (fun (q : Fin 128) => V3 m ρ c main_v4 (ix2 (0 : Fin 1) q)) = fun q => m ((c : Thread nD τ).loc main_arg5) (ix1 q) := by
    funext q; rw [V3_v4, row_apply]
  rw [hA, hX, hW2, hb2]

end Cert.KernelIdeal.Layers

end
-- ==== Proof.Value.Reference.lean ====
/-
  The reference program's result at an entry (R, q) is the two dense graph-convolution layers of the specification.
-/
import proofs.«143792_g77017353552368_cont_sun_m_946_2_alg».proof.Proof.Gen.ReferenceIdeal.Read
import proofs.«143792_g77017353552368_cont_sun_m_946_2_alg».proof.Proof.LibDenseGcn
import Idealize.ShloMosaic.Lib.ValueIdx
import Idealize.ShloMosaic.Lib.Pipeline.Value
import Idealize.ShloMosaic.PureOps.Ideal.Laws

noncomputable section

namespace Cert.ReferenceIdeal.Spec

open Cert.ReferenceIdeal Cert.ReferenceIdeal.Gen Cert.ReferenceIdeal.Read
open Idealize.ShloMosaic Idealize.ShloMosaic.TcCoe Idealize.ShloMosaic.ValueIdx Idealize.SL.Sem

/-! ## The specification's functions, one unfolding at a time -/

theorem agg_at (A : Fin 8192 → Fin 8192 → EReal) (X : Fin 8192 → Fin 128 → EReal) (R : Fin 8192) (j : Fin 128) :
    Cert.DenseGcn.agg A X R j = ∑ k : Fin 8192, A R k * X k j := rfl

theorem layer_clip_at (A : Fin 8192 → Fin 8192 → EReal) (X : Fin 8192 → Fin 128 → EReal) (W : Fin 128 → Fin 128 → EReal)
    (b : Fin 128 → EReal) (R : Fin 8192) (q : Fin 128) :
    Cert.DenseGcn.layer Cert.DenseGcn.clip A X W b R q
      = max ((∑ j : Fin 128, Cert.DenseGcn.agg A X R j * W q j) + b q) 0 := rfl

theorem twoLayers_at (A : Fin 8192 → Fin 8192 → EReal) (X : Fin 8192 → Fin 128 → EReal) (W1 : Fin 128 → Fin 128 → EReal)
    (b1 : Fin 128 → EReal) (W2 : Fin 128 → Fin 128 → EReal) (b2 : Fin 128 → EReal) (R : Fin 8192) (q : Fin 128) :
    Cert.DenseGcn.twoLayers A X W1 b1 W2 b2 R q
      = (∑ j : Fin 128, Cert.DenseGcn.agg A (Cert.DenseGcn.layer Cert.DenseGcn.clip A X W1 b1) R j * W2 q j) + b2 q := rfl

/-! ## The stages' index functions at an entry given by its coordinates

  A product of the adjacency with a feature matrix reads row `R` of the left operand against column `j` of the right one;
  a product with a transposed weight reads the weight at the swapped pair; a bias broadcast along the rows reads the bias
  at the column alone. -/

theorem lidx_v0_at (R : Fin 8192) (j : Fin 128) (k : Fin 8192) : lidx_main_v0 (ix2 R j) k = ix2 R k := by
  funext a; match a with | ⟨0, _⟩ => rfl | ⟨1, _⟩ => rfl
theorem ridx_v0_at (R : Fin 8192) (j : Fin 128) (k : Fin 8192) : ridx_main_v0 (ix2 R j) k = ix2 k j := by
  funext a; match a with | ⟨0, _⟩ => rfl | ⟨1, _⟩ => rfl
theorem idx_v1_at (j q : Fin 128) : idx_main_v1 (ix2 j q) = ix2 q j := by
  funext a; match a with | ⟨0, _⟩ => rfl | ⟨1, _⟩ => rfl
theorem lidx_v2_at (R : Fin 8192) (q j : Fin 128) : lidx_main_v2 (ix2 R q) j = ix2 R j := by
  funext a; match a with | ⟨0, _⟩ => rfl | ⟨1, _⟩ => rfl
theorem ridx_v2_at (R : Fin 8192) (q j : Fin 128) : ridx_main_v2 (ix2 R q) j = ix2 j q := by
  funext a; match a with | ⟨0, _⟩ => rfl | ⟨1, _⟩ => rfl
theorem idx_v3_v4_at (R : Fin 8192) (q : Fin 128) : idx_main_v3 (idx_main_v4 (ix2 R q)) = ix1 q := by
  funext a; match a with | ⟨0, _⟩ => rfl
theorem lidx_v7_at (R : Fin 8192) (j : Fin 128) (k : Fin 8192) : lidx_main_v7 (ix2 R j) k = ix2 R k := by
  funext a; match a with | ⟨0, _⟩ => rfl | ⟨1, _⟩ => rfl
theorem ridx_v7_at (R : Fin 8192) (j : Fin 128) (k : Fin 8192) : ridx_main_v7 (ix2 R j) k = ix2 k j := by
  funext a; match a with | ⟨0, _⟩ => rfl | ⟨1, _⟩ => rfl
theorem idx_v8_at (j q : Fin 128) : idx_main_v8 (ix2 j q) = ix2 q j := by
  funext a; match a with | ⟨0, _⟩ => rfl | ⟨1, _⟩ => rfl
theorem lidx_v9_at (R : Fin 8192) (q j : Fin 128) : lidx_main_v9 (ix2 R q) j = ix2 R j := by
  funext a; match a with | ⟨0, _⟩ => rfl | ⟨1, _⟩ => rfl
theorem ridx_v9_at (R : Fin 8192) (q j : Fin 128) : ridx_main_v9 (ix2 R q) j = ix2 j q := by
  funext a; match a with | ⟨0, _⟩ => rfl | ⟨1, _⟩ => rfl
theorem idx_v10_v11_at (R : Fin 8192) (q : Fin 128) : idx_main_v10 (idx_main_v11 (ix2 R q)) = ix1 q := by
  funext a; match a with | ⟨0, _⟩ => rfl

/-! ## The first layer -/

section
variable (x0 : (⟨S8192x8192, .f32⟩ : BufTy).Contents (Elt Ideal)) (x1 : (⟨S8192x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The adjacency times the features, at (R, j), is the aggregated feature. -/
theorem v0_at (R : Fin 8192) (j : Fin 128) :
    val_main_v0 (F := Ideal) x0 x1 (ix2 R j)
      = Cert.DenseGcn.agg (fun R k => x0 (ix2 R k)) (fun k j => x1 (ix2 k j)) R j := by
  rw [agg_at, val_main_v0_apply]
  refine Finset.sum_congr rfl fun k _ => ?_
  rw [lidx_v0_at, ridx_v0_at]

/-- The transposed first weight at (j, q) is the weight at (q, j). -/
theorem v1_at (j q : Fin 128) : val_main_v1 (F := Ideal) x2 (ix2 j q) = x2 (ix2 q j) := by
  rw [val_main_v1_apply, idx_v1_at]

/-- The aggregated features times the transposed weight. -/
theorem v2_at (R : Fin 8192) (q : Fin 128) :
    val_main_v2 (F := Ideal) x0 x1 x2 (ix2 R q)
      = ∑ j : Fin 128, Cert.DenseGcn.agg (fun R k => x0 (ix2 R k)) (fun k j => x1 (ix2 k j)) R j * x2 (ix2 q j) := by
  rw [val_main_v2_apply]
  refine Finset.sum_congr rfl fun j _ => ?_
  rw [lidx_v2_at, ridx_v2_at, v0_at, v1_at]

/-- The first bias, broadcast along the rows. -/
theorem v4_at (R : Fin 8192) (q : Fin 128) : val_main_v4 (F := Ideal) x3 (ix2 R q) = x3 (ix1 q) := by
  rw [val_main_v4_apply, val_main_v3_apply, idx_v3_v4_at]

/-- The constant the clip compares with is zero at every entry. -/
theorem call0_v0_at (i : S8192x128.Idx) : val_main_call0_v0 (F := Ideal) i = 0 := by
  rw [val_main_call0_v0_apply, val_main_call0_cst_apply, Ideal.ofBits_def, Ideal.ofBits_zero_f32]

/-- The first layer's output: the clip at zero of the product plus the bias. -/
theorem v6_at (R : Fin 8192) (q : Fin 128) :
    val_main_v6 (F := Ideal) x0 x1 x2 x3 (ix2 R q)
      = Cert.DenseGcn.layer Cert.DenseGcn.clip (fun R k => x0 (ix2 R k)) (fun k j => x1 (ix2 k j))
          (fun q j => x2 (ix2 q j)) (fun q => x3 (ix1 q)) R q := by
  rw [layer_clip_at, val_main_v6_apply, Ideal.maximumf_def, val_main_v5_apply, Ideal.addf_def, v2_at, v4_at, call0_v0_at]

/-! ## The second layer -/

/-- The adjacency times the first layer's output, at (R, j). -/
theorem v7_at (R : Fin 8192) (j : Fin 128) :
    val_main_v7 (F := Ideal) x0 x1 x2 x3 (ix2 R j)
      = Cert.DenseGcn.agg (fun R k => x0 (ix2 R k))
          (Cert.DenseGcn.layer Cert.DenseGcn.clip (fun R k => x0 (ix2 R k)) (fun k j => x1 (ix2 k j))
            (fun q j => x2 (ix2 q j)) (fun q => x3 (ix1 q))) R j := by
  rw [agg_at, val_main_v7_apply]
  refine Finset.sum_congr rfl fun k _ => ?_
  rw [lidx_v7_at, ridx_v7_at, v6_at]

/-- The transposed second weight at (j, q) is the weight at (q, j). -/
theorem v8_at (j q : Fin 128) : val_main_v8 (F := Ideal) x4 (ix2 j q) = x4 (ix2 q j) := by
  rw [val_main_v8_apply, idx_v8_at]

/-- The second layer's product. -/
theorem v9_at (R : Fin 8192) (q : Fin 128) :
    val_main_v9 (F := Ideal) x0 x1 x2 x3 x4 (ix2 R q)
      = ∑ j : Fin 128, Cert.DenseGcn.agg (fun R k => x0 (ix2 R k))
          (Cert.DenseGcn.layer Cert.DenseGcn.clip (fun R k => x0 (ix2 R k)) (fun k j => x1 (ix2 k j))
            (fun q j => x2 (ix2 q j)) (fun q => x3 (ix1 q))) R j * x4 (ix2 q j) := by
  rw [val_main_v9_apply]
  refine Finset.sum_congr rfl fun j _ => ?_
  rw [lidx_v9_at, ridx_v9_at, v7_at, v8_at]

/-- The second bias, broadcast along the rows. -/
theorem v11_at (R : Fin 8192) (q : Fin 128) : val_main_v11 (F := Ideal) x5 (ix2 R q) = x5 (ix1 q) := by
  rw [val_main_v11_apply, val_main_v10_apply, idx_v10_v11_at]

end

theorem reference_eq (x0 : (⟨S8192x8192, .f32⟩ : BufTy).Contents (Elt Ideal)) (x1 : (⟨S8192x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (R : Fin 8192) (q : Fin 128) :
    val_main_v12 (F := Ideal) x0 x1 x2 x3 x4 x5 (ix2 R q)
      = Cert.DenseGcn.twoLayers (fun R k => x0 (ix2 R k)) (fun k j => x1 (ix2 k j)) (fun q j => x2 (ix2 q j)) (fun q => x3 (ix1 q))
          (fun q j => x4 (ix2 q j)) (fun q => x5 (ix1 q)) R q := by
  rw [twoLayers_at, val_main_v12_apply, Ideal.addf_def, v9_at, v11_at]

end Cert.ReferenceIdeal.Spec

end
-- ==== Proof.lean ====
/-
  Two dense graph-convolution layers, out = (A · clip((A · X) · W1ᵀ + b1)) · W2ᵀ + b2, as two pipelined kernels against
  the plain matrix-product reference.

  Each kernel walks a 16 × 4 grid: row block i of 512 rows of A, contraction step k of 2048 columns. It keeps a [512, 128]
  accumulator in scratch, zeroed at step 0 and increased at every step by A[i-block, k-block] · X[k-block]; at step 3 it
  multiplies the finished accumulator by the transposed weight, adds the bias (the first layer clips at zero) and stores the
  row block of the output. Over the extended reals the casts to bf16 are the identity and the four partial sums added up
  from zero are the whole contraction, so each kernel computes exactly one layer of the reference; the second reads the
  first's output. Nothing in the comparison needs the inputs finite.

  The frames: both kernel programs run as host stretch, pallas_call, host stretch, pallas_call, each pallas_call's body
  meeting the pipeline's obligation at every grid point with the accumulator carried in the invariant; the reference's
  frame is its run with the result dropped. The idealization rewrote nothing, so `preserves` is trivial.
-/
import proofs.«143792_g77017353552368_cont_sun_m_946_2_alg».proof.Defs
import proofs.«143792_g77017353552368_cont_sun_m_946_2_alg».proof.Proof.Gen.Kernel
import proofs.«143792_g77017353552368_cont_sun_m_946_2_alg».proof.Proof.Gen.KernelIdeal
import proofs.«143792_g77017353552368_cont_sun_m_946_2_alg».proof.Proof.Gen.ReferenceIdeal
import proofs.«143792_g77017353552368_cont_sun_m_946_2_alg».proof.Proof.Gen.Pre_finite_inputs
import proofs.«143792_g77017353552368_cont_sun_m_946_2_alg».proof.Proof.Gen.ReferenceIdeal.Run
import proofs.«143792_g77017353552368_cont_sun_m_946_2_alg».proof.Proof.Gen.ReferenceIdeal.Read
import proofs.«143792_g77017353552368_cont_sun_m_946_2_alg».proof.Proof.K.Run
import proofs.«143792_g77017353552368_cont_sun_m_946_2_alg».proof.Proof.KI.Run
import proofs.«143792_g77017353552368_cont_sun_m_946_2_alg».proof.Proof.Value.Kernel
import proofs.«143792_g77017353552368_cont_sun_m_946_2_alg».proof.Proof.Value.Reference
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Layers.frame m ρ

theorem frame_ki : Cert.frame_KernelIdeal := fun m ρ _ => Cert.KernelIdeal.Layers.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the two layers of the specification, read off arguments that
    agree: the kernel program's by its run and `kernel_value`, the reference's by its run and `reference_eq`. -/
theorem algebraic : Cert.algebraic_KernelIdeal_ReferenceIdeal := by
  intro m ρ m' ρ' _ hagree
  refine ⟨fun c => Cert.KernelIdeal.Layers.W4 m ρ c (Proc.devRef .tc Cert.KernelIdeal.main_v5), ?_, ?_⟩
  · refine (θ_run Cert.KernelIdeal.defs _ _).mono (fun _ h c => ?_) (Cert.KernelIdeal.Layers.run_all (F := Ideal) m ρ)
    exact ⟨h c _ (Cert.KernelIdeal.Layers.mem_uc Cert.KernelIdeal.main_v5 (by decide)),
      (h c _ (Cert.KernelIdeal.Layers.mem_uc Cert.KernelIdeal.main_arg0 (by decide))).trans (Cert.KernelIdeal.Layers.W4_main_arg0 m ρ c),
      (h c _ (Cert.KernelIdeal.Layers.mem_uc Cert.KernelIdeal.main_arg1 (by decide))).trans (Cert.KernelIdeal.Layers.W4_main_arg1 m ρ c),
      (h c _ (Cert.KernelIdeal.Layers.mem_uc Cert.KernelIdeal.main_arg2 (by decide))).trans (Cert.KernelIdeal.Layers.W4_main_arg2 m ρ c),
      (h c _ (Cert.KernelIdeal.Layers.mem_uc Cert.KernelIdeal.main_arg3 (by decide))).trans (Cert.KernelIdeal.Layers.W4_main_arg3 m ρ c),
      (h c _ (Cert.KernelIdeal.Layers.mem_uc Cert.KernelIdeal.main_arg4 (by decide))).trans (Cert.KernelIdeal.Layers.W4_main_arg4 m ρ c),
      (h c _ (Cert.KernelIdeal.Layers.mem_uc Cert.KernelIdeal.main_arg5 (by decide))).trans (Cert.KernelIdeal.Layers.W4_main_arg5 m ρ c)⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2,
      Cert.ReferenceIdeal.Read.val_main_v12_eq]
    funext i
    obtain ⟨R, q, rfl⟩ : ∃ (R : Fin 8192) (q : Fin 128), i = ix2 R q := ⟨i 0, i 1, eq_ix2 i⟩
    rw [Cert.ReferenceIdeal.Spec.reference_eq]
    exact (Cert.KernelIdeal.Layers.kernel_value m ρ c R q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
